-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x16384 .f32) (main_arg5 : FVec F S16384 .f32) (main_arg6 : FVec F S16384x4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384x4096 .f32 := Host.absf main_arg6
  let main_cst_10 : FVec F S_ .f32 := constant S_ .f32 0x7F800000#32
  let main_v30 : FVec F S16384x4096 .f32 := broadcastInDim S16384x4096 ![] bcast_S_S16384x4096 main_cst_10
  let main_v31 : IVec S16384x4096 1 := cmpf .olt main_v29 main_v30
  let main_c_11 : IVec S_ 1 := constantI S_ 1 1#1
  let main_v32 : IVec S_ 1 := (fun x v => Host.reduce IntOp.andi x v reducesTo_S16384x4096_S_d0_1 h_S_) main_v31 main_c_11
  let main_v33 : IVec S_ 1 := andi main_v28 main_v32
  fn_part2 (F := F) main_arg7 main_v33

def fn {F : FTy → Type} [FloatOps F] (main_arg0 : FVec F S2x2048x4096 .f32) (main_arg1 : FVec F S2x2048x4096 .f32) (main_arg2 : FVec F S4096 .f32) (main_arg3 : FVec F S4096 .f32) (main_arg4 : FVec F S4096x16384 .f32) (main_arg5 : FVec F S16384 .f32) (main_arg6 : FVec F S16384x4096 .f32) (main_arg7 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x2048x4096 .f32 := Host.absf main_arg1
  let main_cst_0 : FVec F S_ .f32 := constant S_ .f32 0x7F800000#32
  let main_v5 : FVec F S2x2048x4096 .f32 := broadcastInDim S2x2048x4096 ![] bcast_S_S2x2048x4096 main_cst_0
  let main_v6 : IVec S2x2048x4096 1 := cmpf .olt main_v4 main_v5
  let main_c_1 : IVec S_ 1 := constantI S_ 1 1#1
  let main_v7 : IVec S_ 1 := (fun x v => Host.reduce IntOp.andi x v reducesTo_S2x2048x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S4096x4096 : Shape := ⟨2, ![4096, 4096]⟩
abbrev S1x4096 : Shape := ⟨2, ![1, 4096]⟩
abbrev S1x16384 : Shape := ⟨2, ![1, 16384]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S4096x128 : Shape := ⟨2, ![4096, 128]⟩
abbrev S1x128 : Shape := ⟨2, ![1, 128]⟩
abbrev S128x4096 : Shape := ⟨2, ![128, 4096]⟩
abbrev S512x128 : Shape := ⟨2, ![512, 128]⟩

abbrev nBuf : Space → Nat
  | .hbm => 18
  | .vmem => 21
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096x16384, .f32⟩
  | .hbm, ⟨5, _⟩ => ⟨S16384, .f32⟩
  | .hbm, ⟨6, _⟩ => ⟨S16384x4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S1x4096, .f32⟩
  | .hbm, ⟨12, _⟩ => ⟨S1x16384, .f32⟩
  | .hbm, ⟨13, _⟩ => ⟨S1x4096, .f32⟩
  | .hbm, ⟨14, _⟩ => ⟨S4096x4096, .bf16⟩
  | .hbm, ⟨15, _⟩ => ⟨S4096x4096, .bf16⟩
  | .hbm, ⟨16, _⟩ => ⟨S4096x4096, .f32⟩
  | .hbm, ⟨17, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S512x4096, .bf16⟩
  | .local _ .vmem, ⟨11, _⟩ => ⟨S4096x128, .f32⟩
  | .local _ .vmem, ⟨12, _⟩ => ⟨S4096x128, .f32⟩
  | .local _ .vmem, ⟨13, _⟩ => ⟨S1x128, .f32⟩
  | .local _ .vmem, ⟨14, _⟩ => ⟨S1x128, .f32⟩
  | .local _ .vmem, ⟨15, _⟩ => ⟨S128x4096, .f32⟩
  | .local _ .vmem, ⟨16, _⟩ => ⟨S128x4096, .f32⟩
  | .local _ .vmem, ⟨17, _⟩ => ⟨S1x4096, .f32⟩
  | .local _ .vmem, ⟨18, _⟩ => ⟨S512x4096, .bf16⟩
  | .local _ .vmem, ⟨19, _⟩ => ⟨S512x4096, .f32⟩
  | .local _ .vmem, ⟨20, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 128], ![false, false]⟩

def k1_cond2 (i : grid1.Coords) : BitVec 1 :=
  let arg1 : BitVec 32 := BitVec.ofNat 32 (i 1).val
  let c127_i32 : BitVec 32 := 127#32
  let v23 : BitVec 1 := Scalar.cmpi .eq arg1 c127_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

abbrev stage1_6 : Fin 1 → Memref sig .tc .vmem S512x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

class Facts₀ : Prop where
  shapeCasts_S2x2048x4096_S4096x4096 : S2x2048x4096.ShapeCasts S4096x4096
  shapeCasts_S4096_S1x4096 : S4096.ShapeCasts S1x4096
  shapeCasts_S16384_S1x16384 : S16384.ShapeCasts S1x16384
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x4096_S128x4096_0_0 : ∀ a, (![0, 0] : Fin 2 → Nat) a + S128x4096.size a ≤ S128x4096.size a
  h_S128x4096 : 0 < S128x4096.numel
  broadcasts_S1x4096_S512x4096 : S1x4096.Broadcasts S512x4096
  shapeCasts_S4096x4096_S2x2048x4096 : S4096x4096.ShapeCasts S2x2048x4096
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x16384.size a
  hwx1_1 : ∀ i : grid1.Coords, EltTy.bits .f32 = 32 ∨ (Rect.block (s := S4096x16384) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x16384.size a
  hwx1_2 : ∀ i : grid1.Coords, EltTy.bits .f32 = 32 ∨ (Rect.block (s := S1x16384) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S16384x4096.size a
  hwx1_3 : ∀ i : grid1.Coords, EltTy.bits .f32 = 32 ∨ (Rect.block (s := S16384x4096) S128x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S4096x4096.size a
  hwx1_5 : ∀ i : grid1.Coords, EltTy.bits .bf16 = 32 ∨ (Rect.block (s := S4096x4096) S512x4096.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x4096.size a ≤ S4096x4096.size a
  hwx1_6 : ∀ i : grid1.Coords, EltTy.bits .f32 = 32 ∨ (Rect.block (s := S4096x4096) S512x4096.size (cc1_transform_6 i) (hinb1_6 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S512x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S512x4096.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S2x2048x16384 : Shape := ⟨3, ![2, 2048, 16384]⟩
abbrev S1x1x16384 : Shape := ⟨3, ![1, 1, 16384]⟩

abbrev nBuf : Space → Nat
  | .hbm => 50
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x4096, .f32⟩
  | .hbm, ⟨2, _⟩ => ⟨S4096, .f32⟩
  | .hbm, ⟨3, _⟩ => ⟨S4096, .f32⟩
  | .hbm, ⟨4, _⟩ => ⟨S4096x16384, .f32⟩
  | .hbm, ⟨5, _⟩ => ⟨S16384, .f32⟩
  | .hbm, ⟨6, _⟩ => ⟨S16384x4096, .f32⟩
  | .hbm, ⟨7, _⟩ => ⟨S4096, .f32⟩
  | .hbm, ⟨8, _⟩ => ⟨S2x2048x4096, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x4096, .f32⟩
  | .hbm, ⟨16, _⟩ => ⟨S2x2048x4096, .f32⟩
  | .hbm, ⟨17, _⟩ => ⟨S2x2048x4096, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x4096, .f32⟩
  | .hbm, ⟨25, _⟩ => ⟨S2x2048x4096, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x4096, .f32⟩
  | .hbm, ⟨31, _⟩ => ⟨S2x2048x4096, .f32⟩
  | .hbm, ⟨32, _⟩ => ⟨S1x1x4096, .f32⟩
  | .hbm, ⟨33, _⟩ => ⟨S2x2048x4096, .f32⟩
  | .hbm, ⟨34, _⟩ => ⟨S2x2048x4096, .f32⟩
  | .hbm, ⟨35, _⟩ => ⟨S1x1x4096, .f32⟩
  | .hbm, ⟨36, _⟩ => ⟨S2x2048x4096, .f32⟩
  | .hbm, ⟨37, _⟩ => ⟨S2x2048x4096, .f32⟩
  | .hbm, ⟨38, _⟩ => ⟨S2x2048x16384, .f32⟩
  | .hbm, ⟨39, _⟩ => ⟨S1x1x16384, .f32⟩
  | .hbm, ⟨40, _⟩ => ⟨S2x2048x16384, .f32⟩
  | .hbm, ⟨41, _⟩ => ⟨S2x2048x16384, .f32⟩
  | .hbm, ⟨42, _⟩ => ⟨S_, .f32⟩
  | .hbm, ⟨43, _⟩ => ⟨S2x2048x16384, .f32⟩
  | .hbm, ⟨44, _⟩ => ⟨S2x2048x16384, .f32⟩
  | .hbm, ⟨45, _⟩ => ⟨S2x2048x4096, .f32⟩
  | .hbm, ⟨46, _⟩ => ⟨S1x1x4096, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  bcast_S_S2x2048x16384 : S_.BroadcastsInDim S2x2048x16384 (![] : Fin 0 → Fin S2x2048x16384.rank)
  dot_S2x2048x4096_S4096x16384_S2x2048x16384_2_0_01_1_n_n_wf : DotDims.WF S2x2048x4096 S4096x16384 S2x2048x16384 [2] [0] [0, 1] [1] [] []
  dot_S2x2048x16384_S16384x4096_S2x2048x4096_2_0_01_1_n_n_wf : DotDims.WF S2x2048x16384 S16384x4096 S2x2048x4096 [2] [0] [0, 1] [1] [] []

variable [Facts₀]

def dot_S2x2048x4096_S4096x16384_S2x2048x16384_2_0_01_1_n_n : DotDims S2x2048x4096 S4096x16384 S2x2048x16384 where
  lhsContracting := [2]
  rhsContracting := [0]
  lhsNonContracting := [0, 1]
  rhsNonContracting := [1]
  lhsBatch := []
  rhsBatch := []
  wf := dot_S2x2048x4096_S4096x16384_S2x2048x16384_2_0_01_1_n_n_wf
def dot_S2x2048x16384_S16384x4096_S2x2048x4096_2_0_01_1_n_n : DotDims S2x2048x16384 S16384x4096 S2x2048x4096 where
  lhsContracting := [2]
  rhsContracting := [0]
  lhsNonContracting := [0, 1]
  rhsNonContracting := [1]
  lhsBatch := []
  rhsBatch := []
  wf := dot_S2x2048x16384_S16384x4096_S2x2048x4096_2_0_01_1_n_n_wf

class Facts : Prop extends Facts₀ where

variable [Facts]
-- ==== Proof.K.Base.lean ====
/-
  What both kernel regions' frame proofs share, at any float instance: a window's block at a grid point read off
  the array as the region finds it, the fact that an input window's staging buffer holds that block at every point
  (fetched there or not: an unfetched window's block index has not moved), the two grid conditions of the second
  kernel in closed form (first and last step of the inner axis), where its output window is idle, and the region
  invariant of the second kernel with the accumulator scratch named.
-/
import proofs.«173403_j85487029059846_1_alg».proof.Proof.Gen.Kernel.Launch
import proofs.«173403_j85487029059846_1_alg».proof.Proof.Gen.Kernel.Skeleton
import proofs.«173403_j85487029059846_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block of the first kernel at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second kernel at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The second kernel's branch conditions over the grid (8 × 128 points, the inner axis the reduction's) -/

/-- "This is the reduction's first step": the kernel's test `k == 0` as it computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)

/-- "This is the reduction's last step": the kernel's test `k == 127`. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the second kernel's windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Away from the last step the output window is idle (nothing is stored into it) and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last step it is live. -/
theorem liveAt1_6 : ∀ t : Fin cfg1.N, cond1_1 (grid1.coords t) → cfg1.idle 6 (grid1.coords t) = false := by decide +kernel

/-! ## The second kernel's staging memrefs at a point, and its accumulator -/

abbrev VO1_6 : View sig .tc .vmem S512x4096 .f32 := (Memref.whole cc1_stg6_0 : Memref sig .tc .vmem S512x4096 .f32).view
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4096 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x4096 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S512x4096 .f32 := Memref.whole cc1_scratch0
abbrev VS1_0 : View sig .tc .vmem S512x4096 .f32 := scM1_0.view

/-- The second region's invariant with what it says of the accumulator a parameter `S`: the first kernel's staging
    buffers (scoped, no concern of this kernel) each at some contents, then `S`, and the generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ (∃ r, prngReg c r))

/-- The class invariant is that with the accumulator owned at some contents. -/
theorem PhiA1_eq (c : Dev nD) :
    (Pipeline.ΦA spec1 c : sProp 𝕄) = PhiWith1 c iprop(∃ d, owns (c : Thread nD τ) scM1_0 fullShare d) := by
  unfold Pipeline.ΦA PhiWith1; rw [scopedRest1_eq]; simp only [scM1_0, owns_whole]; try rfl

end Cert.Kernel.Hand

end
-- ==== Proof.K.Region0.lean ====
/-
  The first kernel region (the layer normalisation), at any float instance: on one block of 256 rows the body reads
  the two activations' blocks and the two parameter rows and stores, whole, the normalised rows and the pre-normalisation
  sum into its two output windows. Its proof data: every input window's buffer holds its block at every point, every
  output window's what the body stores from the input blocks; nothing is carried from point to point.
-/
import proofs.«173403_j85487029059846_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves in each output window's buffer -/

abbrev r0_a : Rect S256x4096 := Rect.unit (s := S256x4096) ![0, 0] S256x4096.size inb_S256x4096_S256x4096_0_0
abbrev r0_b : Rect S1x4096 := Rect.unit (s := S1x4096) ![0, 0] S1x4096.size inb_S1x4096_S1x4096_0_0

/-- The normalised rows' buffer after the body, from the four input blocks: one store covering it. -/
def out0_4 (x0 : Vec F S256x4096 .f32) (x1 : Vec F S256x4096 .f32) (x2 : Vec F S1x4096 .f32) (x3 : Vec F S1x4096 .f32) : Vec F S256x4096 .bf16 :=
  View.canon [⟨r0_a, k0_pay2 (View.ld x0 r0_a) (View.ld x1 r0_a) (View.ld x2 r0_b) (View.ld x3 r0_b)⟩]

/-- The residual sum's buffer after the body, from the two activation blocks: one store covering it. -/
def out0_5 (x0 : Vec F S256x4096 .f32) (x1 : Vec F S256x4096 .f32) : Vec F S256x4096 .bf16 :=
  View.canon [⟨r0_a, k0_pay3 (View.ld x0 r0_a) (View.ld x1 r0_a)⟩]

theorem cover0_o (p0 : Vec F S256x4096 .bf16) (y : S256x4096.Idx) :
    ∃ pc ∈ ([⟨r0_a, p0⟩] : List (View.Piece (Elt F) S256x4096 .bf16)), y ∈ pc.1.set :=
  View.cover_of_tiled [⟨r0_a, p0⟩] S256x4096.size (by rfl) y

/-! ## The body's triple -/

set_option maxHeartbeats 4000000 in
/-- The body on whole staging memrefs, the inputs' at contents `x·` and the outputs' at anything, runs to the
    continuation holding the inputs' as they were and each output's at `out0_·` of the inputs'. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole)
    (x0 : Vec F S256x4096 .f32) (x1 : Vec F S256x4096 .f32) (x2 : Vec F S1x4096 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1)) -∗ K ⟨⟩))
      ⊢ wp frame (wpE (defs₀ (F := F)) Variants.none c none) E (cc0__layernorm_kernel i arg1 harg1 arg2 harg2 arg3 harg3 arg4 harg4 arg5 harg5 arg6 harg6) K := by
  simp only [cc0__layernorm_kernel_eq_skeleton]; unfold cc0__layernorm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

section Data

variable (V : (c : Dev nD) → (b : Ref sig .tc) → Buf (Elt F) ((c : Thread nD τ).loc b))

/-- The first region's proof data on core `c`: the arrays as the region finds them; after the body at point `t` each
    input's buffer at its block and each output's at what the body stores from the input blocks; the class invariant
    (scoped rest and generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.Kernel.Hand

end
-- ==== Proof.K.Run1A.lean ====
/-
  The second kernel's body at the reduction's FIRST step (k = 0, not the last): the accumulator is reset to zero, then the step's partial product is added to it; nothing is stored to the output window.
-/
import proofs.«173403_j85487029059846_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer is handed back untouched. -/
noncomputable def kernelRun1_A (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) :
    Σ' (L6 : List (View.Piece (Elt F) S512x4096 .f32)), { LS0 : List (View.Piece (Elt F) S512x4096 .f32) //
      ∀ (xi6 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨[], ?_, fun xi6 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Run1B.lean ====
/-
  The second kernel's body at a MIDDLE step of the reduction (0 < k < 127): the step's partial product is added to the accumulator carried from the step before; nothing is stored to the output window.
-/
import proofs.«173403_j85487029059846_1_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer is handed back untouched. -/
noncomputable def kernelRun1_B (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    Σ' (L6 : List (View.Piece (Elt F) S512x4096 .f32)), { LS0 : List (View.Piece (Elt F) S512x4096 .f32) //
      ∀ (xi6 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨[], ?_, fun xi6 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Run1C.lean ====
/-
  The second kernel's body at the reduction's LAST step (k = 127): the step's partial product is added to the accumulator, and the finished sum plus the output bias plus the residual is stored to the output window.
-/
import proofs.«173403_j85487029059846_1_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer likewise. -/
noncomputable def kernelRun1_C (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    Σ' (L6 : List (View.Piece (Elt F) S512x4096 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Region1.lean ====
/-
  The second kernel region (the two matrix products with the rectifier between them), at any float instance. Its grid
  is 8 row tiles by 128 reduction steps, the step the inner axis; the kernel keeps a running sum in a scratch buffer
  of its own across the steps of a row tile: reset at the first step, added to at every step, and stored (with the
  output bias and the residual) to the output window at the last, the only step at which that window is written back.
  Here: what each of the three cases leaves in the output buffer and the scratch; what they hold after each point,
  by recursion on the point; the region invariant naming the scratch's contents between points; the proof data and
  the body obligation.
-/
import proofs.«173403_j85487029059846_1_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- In case A nothing is stored into the output window (idle there, not written back): a placeholder nothing consults. -/
def out1_A_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) : Vec F S512x4096 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it. -/
theorem scover1_A_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (y : S512x4096.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x4096.size (by sl_kernel_rfl) y

/-- What case A leaves in the accumulator: its pieces read back. -/
def sout1_A_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) : Vec F S512x4096 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- In case B nothing is stored into the output window (idle there, not written back): a placeholder nothing consults. -/
def out1_B_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it. -/
theorem scover1_B_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S512x4096.size (by sl_kernel_rfl) y

/-- What case B leaves in the accumulator: its pieces read back. -/
def sout1_B_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- At the last step the one store into the output window covers its block. -/
theorem cover1_C_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S512x4096.size (by sl_kernel_rfl) y

/-- What the last step leaves in the output window's buffer: its pieces read back. -/
def out1_C_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it. -/
theorem scover1_C_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S512x4096.size (by sl_kernel_rfl) y

/-- What case C leaves in the accumulator: its pieces read back. -/
def sout1_C_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section Data

variable (V : (c : Dev nD) → (b : Ref sig .tc) → Buf (Elt F) ((c : Thread nD τ).loc b))

/-! ## What the output buffer and the accumulator hold after each point -/

/-- After the body at position `n`: (the output window's buffer, the accumulator). The case is the position's
    residue mod 128 (the reduction step): first step, last step, or between; from the second step on the body
    finds the accumulator as the step before left it. -/
def outsAt1 (c : Dev nD) : (n : ℕ) → n < cfg1.N → Vec F S512x4096 .f32 × Vec F S512x4096 .f32
  | 0, hn =>
    have h0 : (0 : ℕ) % 128 = 0 := Nat.zero_mod _
    have h1 : ¬(0 : ℕ) % 128 = 127 := by decide
    (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 128 = 0 then
      if h1 : (n + 1) % 128 = 127 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 128 = 127 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 128 = 0) (h1 : ¬t.val % 128 = 127) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 128 = 0) (h1 : ¬t.val % 128 = 127) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 128 = 0) (h1 : t.val % 128 = 127) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the very first point the class invariant (the accumulator at anything); afterwards the
    accumulator at what the point before left in it. -/
def PhiS1 (c : Dev nD) : (n : ℕ) → n ≤ cfg1.N → sProp 𝕄
  | 0, _ => Pipeline.ΦA spec1 c
  | n + 1, hn => PhiWith1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1_0 fullShare ((outsAt1 V c n hn).2)) := rfl

theorem PhiS1_pos (c : Dev nD) (n : ℕ) (h : n ≤ cfg1.N) (hz : n ≠ 0) :
    PhiS1 V c n h = PhiWith1 c (owns (c : Thread nD τ) scM1_0 fullShare ((outsAt1 V c (n - 1) (by omega)).2)) := by
  cases n with
  | zero => exact absurd rfl hz
  | succ n => rfl

/-! ## The proof data -/

/-- The second region's proof data on core `c`: the arrays as the region finds them; after the body at point `t` each
    input's buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the step (the point's residue mod 128) says which
    case applies; the invariant hands the body the accumulator at what the step before left (at anything at the very
    first point) and takes it back at this step's contents; the output window is handed back untouched except at
    the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 1024 := lt_of_lt_of_eq t.isLt (show cfg1.N = 1024 from N_1)
  by_cases h0 : t.val % 128 = 0
  · by_cases h1 : t.val % 128 = 127
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 128 = 127
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      by_cases hz : t.val = 0
      · exfalso; omega
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiWith1
  iintro ⟨⟨Hr0, Hr1, Hr2, Hr3, Hr4, Hr5, Hr6, Hr7, Hr8, Hr9, HS0⟩, Hg⟩
  isplitl [Hr0 Hr1 Hr2 Hr3 Hr4 Hr5 Hr6 Hr7 Hr8 Hr9 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexists _; iexact HS0
  iexact Hg

theorem hout1 (c : Dev nD) : (dat1 V c).Φ (Fin.last cfg1.N) ⊢ Pipeline.ΦA spec1 c :=
  Phi_out1 V c _ (by rw [Fin.val_last]; have : cfg1.N = 1024 := N_1; omega)

end Data

end Cert.Kernel.Hand

end
-- ==== Proof.K.Launch.lean ====
/-
  The run of the whole program, at any float instance: @main is four items — the reshapes of the arguments, the
  normalisation kernel, the feed-forward kernel, the reshape of the result — and between two items every unscoped
  buffer of the core is held at named contents: the launch memory, then what the reshapes write, then the first
  kernel's two results at what its write-backs leave, then the second kernel's result likewise, then the final
  reshape. Every weakly fair execution terminates with every unscoped buffer at the last of these; the arguments,
  which nothing writes, are read back through the chain to their launch contents.
-/
import proofs.«173403_j85487029059846_1_alg».proof.Proof.K.Region0
import proofs.«173403_j85487029059846_1_alg».proof.Proof.K.Region1
import proofs.«173403_j85487029059846_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch. -/
abbrev W0 : Dev nD → Valuation τ sig (Elt F) := fun c b => (s₀ m ρ).mem ((c : Dev nD), b)
/-- After the six reshapes (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit (it is entered straight from the first's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ### The arguments end as launched: no reshape and no kernel writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at their final contents at exit; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers at entry and put back at their final contents at exit; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ A : sProp 𝕄, iprop((∃ r, prngReg c r) ∗ A ∗ (Pipeline.scopedRest (Ix := Unit) (Name := ℕ) (U := UR sig nD τ) (Lvl := ℕ) (Val := Elt F) spec1 c : sProp 𝕄))
        ⊢ (Pipeline.ΦA spec1 c : sProp 𝕄) := fun A => by
      unfold Pipeline.ΦA
      iintro ⟨Hp, -, Hr⟩
      isplitl [Hr]; · iexact Hr
      iexact Hp
    exact (h _).trans (hin1 (V2 m ρ) c)
  hout c := by
    rw [Pipeline.ownSems0_none]
    have h : (Pipeline.ΦA spec1 c : sProp 𝕄) ⊢ iprop((∃ r, prngReg c r) ∗ (BI.emp : sProp 𝕄) ∗ (Pipeline.scopedRest (Ix := Unit) (Name := ℕ) (U := UR sig nD τ) (Lvl := ℕ) (Val := Elt F) spec1 c : sProp 𝕄)) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_all m ρ)

/-- The run with the result named: the result buffer ends at the last boundary's contents, every argument as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v8 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_all m ρ)

end Cert.Kernel.Hand

end
-- ==== Proof.KI.Base.lean ====
/-
  What both kernel regions' frame proofs share, at any float instance: a window's block at a grid point read off
  the array as the region finds it, the fact that an input window's staging buffer holds that block at every point
  (fetched there or not: an unfetched window's block index has not moved), the two grid conditions of the second
  kernel in closed form (first and last step of the inner axis), where its output window is idle, and the region
  invariant of the second kernel with the accumulator scratch named.
-/
import proofs.«173403_j85487029059846_1_alg».proof.Proof.Gen.KernelIdeal.Launch
import proofs.«173403_j85487029059846_1_alg».proof.Proof.Gen.KernelIdeal.Skeleton
import proofs.«173403_j85487029059846_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block of the first kernel at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second kernel at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The second kernel's branch conditions over the grid (8 × 128 points, the inner axis the reduction's) -/

/-- "This is the reduction's first step": the kernel's test `k == 0` as it computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 128 = 0 :=
  (by decide +kernel : ∀ t : Fin grid1.N, cond1_0 (grid1.coords t) ↔ t.val % 128 = 0)

/-- "This is the reduction's last step": the kernel's test `k == 127`. -/
abbrev cond1_1 (i : grid1.Coords) : Prop := k1_cond2 i = 1#1
theorem hcond1_1 : ∀ t : Fin cfg1.N, cond1_1 (grid1.coords t) ↔ t.val % 128 = 127 :=
  (by decide +kernel : ∀ t : Fin grid1.N, cond1_1 (grid1.coords t) ↔ t.val % 128 = 127)

/-! ## Where the second kernel's windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-- Away from the last step the output window is idle (nothing is stored into it) and is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last step it is live. -/
theorem liveAt1_6 : ∀ t : Fin cfg1.N, cond1_1 (grid1.coords t) → cfg1.idle 6 (grid1.coords t) = false := by decide +kernel

/-! ## The second kernel's staging memrefs at a point, and its accumulator -/

abbrev VO1_6 : View sig .tc .vmem S512x4096 .f32 := (Memref.whole cc1_stg6_0 : Memref sig .tc .vmem S512x4096 .f32).view
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4096 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x4096 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S512x4096 .f32 := Memref.whole cc1_scratch0
abbrev VS1_0 : View sig .tc .vmem S512x4096 .f32 := scM1_0.view

/-- The second region's invariant with what it says of the accumulator a parameter `S`: the first kernel's staging
    buffers (scoped, no concern of this kernel) each at some contents, then `S`, and the generator register at some state. -/
def PhiWith1 (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ S) ∗ (∃ r, prngReg c r))

/-- The class invariant is that with the accumulator owned at some contents. -/
theorem PhiA1_eq (c : Dev nD) :
    (Pipeline.ΦA spec1 c : sProp 𝕄) = PhiWith1 c iprop(∃ d, owns (c : Thread nD τ) scM1_0 fullShare d) := by
  unfold Pipeline.ΦA PhiWith1; rw [scopedRest1_eq]; simp only [scM1_0, owns_whole]; try rfl

end Cert.KernelIdeal.Hand

end
-- ==== Proof.KI.Region0.lean ====
/-
  The first kernel region (the layer normalisation), at any float instance: on one block of 256 rows the body reads
  the two activations' blocks and the two parameter rows and stores, whole, the normalised rows and the pre-normalisation
  sum into its two output windows. Its proof data: every input window's buffer holds its block at every point, every
  output window's what the body stores from the input blocks; nothing is carried from point to point.
-/
import proofs.«173403_j85487029059846_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves in each output window's buffer -/

abbrev r0_a : Rect S256x4096 := Rect.unit (s := S256x4096) ![0, 0] S256x4096.size inb_S256x4096_S256x4096_0_0
abbrev r0_b : Rect S1x4096 := Rect.unit (s := S1x4096) ![0, 0] S1x4096.size inb_S1x4096_S1x4096_0_0

/-- The normalised rows' buffer after the body, from the four input blocks: one store covering it. -/
def out0_4 (x0 : Vec F S256x4096 .f32) (x1 : Vec F S256x4096 .f32) (x2 : Vec F S1x4096 .f32) (x3 : Vec F S1x4096 .f32) : Vec F S256x4096 .bf16 :=
  View.canon [⟨r0_a, k0_pay2 (View.ld x0 r0_a) (View.ld x1 r0_a) (View.ld x2 r0_b) (View.ld x3 r0_b)⟩]

/-- The residual sum's buffer after the body, from the two activation blocks: one store covering it. -/
def out0_5 (x0 : Vec F S256x4096 .f32) (x1 : Vec F S256x4096 .f32) : Vec F S256x4096 .bf16 :=
  View.canon [⟨r0_a, k0_pay3 (View.ld x0 r0_a) (View.ld x1 r0_a)⟩]

theorem cover0_o (p0 : Vec F S256x4096 .bf16) (y : S256x4096.Idx) :
    ∃ pc ∈ ([⟨r0_a, p0⟩] : List (View.Piece (Elt F) S256x4096 .bf16)), y ∈ pc.1.set :=
  View.cover_of_tiled [⟨r0_a, p0⟩] S256x4096.size (by rfl) y

/-! ## The body's triple -/

set_option maxHeartbeats 4000000 in
/-- The body on whole staging memrefs, the inputs' at contents `x·` and the outputs' at anything, runs to the
    continuation holding the inputs' as they were and each output's at `out0_·` of the inputs'. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole)
    (x0 : Vec F S256x4096 .f32) (x1 : Vec F S256x4096 .f32) (x2 : Vec F S1x4096 .f32) (x3 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1)) -∗ K ⟨⟩))
      ⊢ wp frame (wpE (defs₀ (F := F)) Variants.none c none) E (cc0__layernorm_kernel i arg1 harg1 arg2 harg2 arg3 harg3 arg4 harg4 arg5 harg5 arg6 harg6) K := by
  simp only [cc0__layernorm_kernel_eq_skeleton]; unfold cc0__layernorm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

section Data

variable (V : (c : Dev nD) → (b : Ref sig .tc) → Buf (Elt F) ((c : Thread nD τ).loc b))

/-- The first region's proof data on core `c`: the arrays as the region finds them; after the body at point `t` each
    input's buffer at its block and each output's at what the body stores from the input blocks; the class invariant
    (scoped rest and generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Data

end Cert.KernelIdeal.Hand

end
-- ==== Proof.KI.Run1A.lean ====
/-
  The second kernel's body at the reduction's FIRST step (k = 0, not the last): the accumulator is reset to zero, then the step's partial product is added to it; nothing is stored to the output window.
-/
import proofs.«173403_j85487029059846_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer is handed back untouched. -/
noncomputable def kernelRun1_A (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) :
    Σ' (L6 : List (View.Piece (Elt F) S512x4096 .f32)), { LS0 : List (View.Piece (Elt F) S512x4096 .f32) //
      ∀ (xi6 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨[], ?_, fun xi6 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1B.lean ====
/-
  The second kernel's body at a MIDDLE step of the reduction (0 < k < 127): the step's partial product is added to the accumulator carried from the step before; nothing is stored to the output window.
-/
import proofs.«173403_j85487029059846_1_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer is handed back untouched. -/
noncomputable def kernelRun1_B (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    Σ' (L6 : List (View.Piece (Elt F) S512x4096 .f32)), { LS0 : List (View.Piece (Elt F) S512x4096 .f32) //
      ∀ (xi6 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨[], ?_, fun xi6 E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Run1C.lean ====
/-
  The second kernel's body at the reduction's LAST step (k = 127): the step's partial product is added to the accumulator, and the finished sum plus the output bias plus the residual is stored to the output window.
-/
import proofs.«173403_j85487029059846_1_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The second kernel's body in this case, on whole staging memrefs: the six inputs' at their contents and handed back as
    they were; the accumulator ends with the listed pieces written (the witness the symbolic run finds);
    the output's buffer likewise. -/
noncomputable def kernelRun1_C (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    Σ' (L6 : List (View.Piece (Elt F) S512x4096 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__ffn_kernel i arg2 harg2 arg3 harg3 arg4 harg4 arg5 harg5 arg6 harg6 arg7 harg7 arg8 harg8 arg9 harg9) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Region1.lean ====
/-
  The second kernel region (the two matrix products with the rectifier between them), at any float instance. Its grid
  is 8 row tiles by 128 reduction steps, the step the inner axis; the kernel keeps a running sum in a scratch buffer
  of its own across the steps of a row tile: reset at the first step, added to at every step, and stored (with the
  output bias and the residual) to the output window at the last, the only step at which that window is written back.
  Here: what each of the three cases leaves in the output buffer and the scratch; what they hold after each point,
  by recursion on the point; the region invariant naming the scratch's contents between points; the proof data and
  the body obligation.
-/
import proofs.«173403_j85487029059846_1_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- In case A nothing is stored into the output window (idle there, not written back): a placeholder nothing consults. -/
def out1_A_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) : Vec F S512x4096 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it. -/
theorem scover1_A_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (y : S512x4096.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S512x4096.size (by sl_kernel_rfl) y

/-- What case A leaves in the accumulator: its pieces read back. -/
def sout1_A_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) : Vec F S512x4096 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- In case B nothing is stored into the output window (idle there, not written back): a placeholder nothing consults. -/
def out1_B_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it. -/
theorem scover1_B_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S512x4096.size (by sl_kernel_rfl) y

/-- What case B leaves in the accumulator: its pieces read back. -/
def sout1_B_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- At the last step the one store into the output window covers its block. -/
theorem cover1_C_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S512x4096.size (by sl_kernel_rfl) y

/-- What the last step leaves in the output window's buffer: its pieces read back. -/
def out1_C_6 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it. -/
theorem scover1_C_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) (y : S512x4096.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S512x4096.size (by sl_kernel_rfl) y

/-- What case C leaves in the accumulator: its pieces read back. -/
def sout1_C_0 (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) : Vec F S512x4096 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section Data

variable (V : (c : Dev nD) → (b : Ref sig .tc) → Buf (Elt F) ((c : Thread nD τ).loc b))

/-! ## What the output buffer and the accumulator hold after each point -/

/-- After the body at position `n`: (the output window's buffer, the accumulator). The case is the position's
    residue mod 128 (the reduction step): first step, last step, or between; from the second step on the body
    finds the accumulator as the step before left it. -/
def outsAt1 (c : Dev nD) : (n : ℕ) → n < cfg1.N → Vec F S512x4096 .f32 × Vec F S512x4096 .f32
  | 0, hn =>
    have h0 : (0 : ℕ) % 128 = 0 := Nat.zero_mod _
    have h1 : ¬(0 : ℕ) % 128 = 127 := by decide
    (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 128 = 0 then
      if h1 : (n + 1) % 128 = 127 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 128 = 127 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

theorem outsAt1_A (c : Dev nD) (t : Fin cfg1.N) (h0 : t.val % 128 = 0) (h1 : ¬t.val % 128 = 127) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

theorem outsAt1_B (c : Dev nD) (t : Fin cfg1.N) (h0 : ¬t.val % 128 = 0) (h1 : ¬t.val % 128 = 127) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 128 = 0) (h1 : t.val % 128 = 127) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the very first point the class invariant (the accumulator at anything); afterwards the
    accumulator at what the point before left in it. -/
def PhiS1 (c : Dev nD) : (n : ℕ) → n ≤ cfg1.N → sProp 𝕄
  | 0, _ => Pipeline.ΦA spec1 c
  | n + 1, hn => PhiWith1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith1 c (owns (c : Thread nD τ) scM1_0 fullShare ((outsAt1 V c n hn).2)) := rfl

theorem PhiS1_pos (c : Dev nD) (n : ℕ) (h : n ≤ cfg1.N) (hz : n ≠ 0) :
    PhiS1 V c n h = PhiWith1 c (owns (c : Thread nD τ) scM1_0 fullShare ((outsAt1 V c (n - 1) (by omega)).2)) := by
  cases n with
  | zero => exact absurd rfl hz
  | succ n => rfl

/-! ## The proof data -/

/-- The second region's proof data on core `c`: the arrays as the region finds them; after the body at point `t` each
    input's buffer at its block and the output's at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the step (the point's residue mod 128) says which
    case applies; the invariant hands the body the accumulator at what the step before left (at anything at the very
    first point) and takes it back at this step's contents; the output window is handed back untouched except at
    the last step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 1024 := lt_of_lt_of_eq t.isLt (show cfg1.N = 1024 from N_1)
  by_cases h0 : t.val % 128 = 0
  · by_cases h1 : t.val % 128 = 127
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

  · by_cases h1 : t.val % 128 = 127
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_6 sout1_C_0; (try dsimp only)
      by_cases hz : t.val = 0
      · exfalso; omega
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        unfold PhiWith1
        iintro ⟨⟨⟨Hr0, Hr1, Hr2, Hr3, Hr4, Hr5, Hr6, Hr7, Hr8, Hr9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [Hr0 Hr1 Hr2 Hr3 Hr4 Hr5 Hr6 Hr7 Hr8 Hr9 HS0 Hg]
        · isplitl [Hr0 Hr1 Hr2 Hr3 Hr4 Hr5 Hr6 Hr7 Hr8 Hr9 HS0]
          · isplitl [Hr0]; · iexact Hr0
            isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiWith1
  iintro ⟨⟨Hr0, Hr1, Hr2, Hr3, Hr4, Hr5, Hr6, Hr7, Hr8, Hr9, HS0⟩, Hg⟩
  isplitl [Hr0 Hr1 Hr2 Hr3 Hr4 Hr5 Hr6 Hr7 Hr8 Hr9 HS0]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexists _; iexact HS0
  iexact Hg

theorem hout1 (c : Dev nD) : (dat1 V c).Φ (Fin.last cfg1.N) ⊢ Pipeline.ΦA spec1 c :=
  Phi_out1 V c _ (by rw [Fin.val_last]; have : cfg1.N = 1024 := N_1; omega)

end Data

end Cert.KernelIdeal.Hand

end
-- ==== Proof.KI.Launch.lean ====
/-
  The run of the whole program, at any float instance: @main is four items — the reshapes of the arguments, the
  normalisation kernel, the feed-forward kernel, the reshape of the result — and between two items every unscoped
  buffer of the core is held at named contents: the launch memory, then what the reshapes write, then the first
  kernel's two results at what its write-backs leave, then the second kernel's result likewise, then the final
  reshape. Every weakly fair execution terminates with every unscoped buffer at the last of these; the arguments,
  which nothing writes, are read back through the chain to their launch contents.
-/
import proofs.«173403_j85487029059846_1_alg».proof.Proof.KI.Region0
import proofs.«173403_j85487029059846_1_alg».proof.Proof.KI.Region1
import proofs.«173403_j85487029059846_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items -/

/-- Core `c`'s buffers at launch. -/
abbrev W0 : Dev nD → Valuation τ sig (Elt F) := fun c b => (s₀ m ρ).mem ((c : Dev nD), b)
/-- After the six reshapes (the first kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit (it is entered straight from the first's exit). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the final reshape. -/
abbrev W4 : Dev nD → Valuation τ sig (Elt F) := fun c => StableHlo.after hostOps2 (W3 m ρ c)

/-! ### The arguments end as launched: no reshape and no kernel writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := (W3_arr m ρ c 3).trans (((dat1 (V2 m ρ) c).arrAt_in 3 rfl _).trans (A_eq1 (V2 m ρ) c 3))
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at their final contents at exit; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are
    split out of the unscoped buffers at entry and put back at their final contents at exit; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ A : sProp 𝕄, iprop((∃ r, prngReg c r) ∗ A ∗ (Pipeline.scopedRest (Ix := Unit) (Name := ℕ) (U := UR sig nD τ) (Lvl := ℕ) (Val := Elt F) spec1 c : sProp 𝕄))
        ⊢ (Pipeline.ΦA spec1 c : sProp 𝕄) := fun A => by
      unfold Pipeline.ΦA
      iintro ⟨Hp, -, Hr⟩
      isplitl [Hr]; · iexact Hr
      iexact Hp
    exact (h _).trans (hin1 (V2 m ρ) c)
  hout c := by
    rw [Pipeline.ownSems0_none]
    have h : (Pipeline.ΦA spec1 c : sProp 𝕄) ⊢ iprop((∃ r, prngReg c r) ∗ (BI.emp : sProp 𝕄) ∗ (Pipeline.scopedRest (Ix := Unit) (Name := ℕ) (U := UR sig nD τ) (Lvl := ℕ) (Val := Elt F) spec1 c : sProp 𝕄)) := by
      unfold Pipeline.ΦA
      iintro ⟨Hr, Hp⟩
      isplitl [Hp]; · iexact Hp
      isplitr; · iempintro
      iexact Hr
    exact (hout1 (V2 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_all m ρ)

/-- The run with the result named: the result buffer ends at the last boundary's contents, every argument as launched. -/
theorem run_result : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v8 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c)⟩)
    (run_all m ρ)

end Cert.KernelIdeal.Hand

end
-- ==== Proof.RefFrame.lean ====
import proofs.«173403_j85487029059846_1_alg».proof.Defs
import proofs.«173403_j85487029059846_1_alg».proof.Proof.Gen.ReferenceIdeal
import proofs.«173403_j85487029059846_1_alg».proof.Proof.Gen.Pre_finite_inputs
import proofs.«173403_j85487029059846_1_alg».proof.Proof.Gen.ReferenceIdeal.Run
import proofs.«173403_j85487029059846_1_alg».proof.Proof.Gen.ReferenceIdeal.Read

noncomputable section

open Idealize.ShloMosaic Idealize.ShloMosaic.TcCoe Idealize.SL.Sem

namespace Cert.Proof.RefClaims

/-- The reference program has no kernel region: its frame is its run (every host operation's
    result a pure function of the arguments) with the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Val.Spec.lean ====
/-
  The mathematics both programs compute, on the extended reals, one row at a time (the model width is 4096, the
  hidden width 16384).

  * `lnRow h g b`: the layer normalisation of a row `h`: with `μ = (Σ h) / 4096` and `σ² = (Σ (h − μ)²) / 4096`,
    entry `q` is `(h q − μ) · rsqrt(σ² + ε) · g q + b q`.
  * `ffnRow l W₁ b₁ W₂ b₂ res`: the two-layer perceptron on a row `l` with the rectifier between the layers, plus the
    second bias, plus a residual row: entry `q` is `Σ_k max(Σ_j l j · W₁ j k + b₁ k, 0) · W₂ k q + b₂ q + res q`.
  * `outRow x r …`: the whole layer on a row: the perceptron of the normalised `x + r`, with residual `x + r`.

  The kernel sums the hidden axis in 128 tiles of 128, adding tile after tile to a running sum; `sum_tiles` says a sum
  over 16384 is the sum over the tiles of the sums within a tile, and `runSum_tiles` the running sum's recursion.
-/
import Idealize.ShloMosaic.PureOps.Ideal
import Idealize.ShloMosaic.PureOps.Ideal.Laws
import Mathlib.Algebra.BigOperators.Fin
import Mathlib.Data.EReal.Basic

noncomputable section

namespace Cert.Spec

open Idealize.ShloMosaic

/-- The row length as a float: the word of `4096.0`. -/
def cN : EReal := Ideal.ofBits .f32 0x45800000#32
/-- The variance's guard: the word of the float nearest `1e-5`. -/
def cEps : EReal := Ideal.ofBits .f32 0x3727C5AC#32

/-- A row's mean. -/
def mean (h : Fin 4096 → EReal) : EReal := Ideal.div (∑ j, h j) cN
/-- A row's (biased) variance. -/
def var (h : Fin 4096 → EReal) : EReal := Ideal.div (∑ j, (h j - mean h) * (h j - mean h)) cN

/-- Layer normalisation of the row `h` with scale `g` and shift `b`, at entry `q`. -/
def lnRow (h g b : Fin 4096 → EReal) (q : Fin 4096) : EReal :=
  (h q - mean h) * Ideal.rsqrt (var h + cEps) * g q + b q

/-- The hidden activation `k` of the row `l`: the first product, its bias, the rectifier. -/
def hidden (l : Fin 4096 → EReal) (W1 : Fin 4096 → Fin 16384 → EReal) (b1 : Fin 16384 → EReal) (k : Fin 16384) : EReal :=
  max ((∑ j, l j * W1 j k) + b1 k) 0

/-- The perceptron on the row `l`, plus the output bias, plus the residual row, at entry `q`. -/
def ffnRow (l : Fin 4096 → EReal) (W1 : Fin 4096 → Fin 16384 → EReal) (b1 : Fin 16384 → EReal)
    (W2 : Fin 16384 → Fin 4096 → EReal) (b2 res : Fin 4096 → EReal) (q : Fin 4096) : EReal :=
  (∑ k, hidden l W1 b1 k * W2 k q) + b2 q + res q

/-- The whole layer on one row: `x` the activation's row, `r` the incoming residual's. -/
def outRow (x r g b : Fin 4096 → EReal) (W1 : Fin 4096 → Fin 16384 → EReal) (b1 : Fin 16384 → EReal)
    (W2 : Fin 16384 → Fin 4096 → EReal) (b2 : Fin 4096 → EReal) (q : Fin 4096) : EReal :=
  ffnRow (lnRow (fun j => x j + r j) g b) W1 b1 W2 b2 (fun j => x j + r j) q

/-- Hidden index `128·t + j` of tile `t`. -/
def tileIdx (t : Fin 128) (j : Fin 128) : Fin 16384 := ⟨128 * t.val + j.val, by omega⟩

/-- A sum over the hidden axis is the sum over the 128 tiles of the sums within a tile. -/
theorem sum_tiles (f : Fin 16384 → EReal) : (∑ k, f k) = ∑ t : Fin 128, ∑ j : Fin 128, f (tileIdx t j) := by
  rw [← Fintype.sum_prod_type' (fun (t : Fin 128) (j : Fin 128) => f (tileIdx t j))]
  refine (Fintype.sum_equiv (finProdFinEquiv (m := 128) (n := 128)) (fun x => f (tileIdx x.1 x.2)) f (fun x => ?_)).symm
  congr 1
  apply Fin.ext
  simp only [tileIdx, finProdFinEquiv, Equiv.coe_fn_mk]
  omega

/-- The running sum after tile `n`: tiles `0 … n` summed. -/
def runSum (f : Fin 16384 → EReal) (n : ℕ) : EReal :=
  ∑ t : Fin 128, if t.val ≤ n then ∑ j : Fin 128, f (tileIdx t j) else 0

theorem runSum_zero (f : Fin 16384 → EReal) : runSum f 0 = ∑ j : Fin 128, f (tileIdx 0 j) := by
  unfold runSum
  rw [Finset.sum_eq_single (0 : Fin 128)]
  · simp
  · intro t _ ht
    have : ¬ t.val ≤ 0 := fun h => ht (Fin.ext (Nat.le_zero.mp h))
    simp [this]
  · intro h; exact absurd (Finset.mem_univ _) h

theorem runSum_succ (f : Fin 16384 → EReal) (n : ℕ) (hn : n + 1 < 128) :
    runSum f (n + 1) = runSum f n + ∑ j : Fin 128, f (tileIdx ⟨n + 1, hn⟩ j) := by
  unfold runSum
  have hsplit : ∀ t : Fin 128, (if t.val ≤ n + 1 then ∑ j : Fin 128, f (tileIdx t j) else 0)
      = (if t.val ≤ n then ∑ j : Fin 128, f (tileIdx t j) else 0)
        + (if t = ⟨n + 1, hn⟩ then ∑ j : Fin 128, f (tileIdx t j) else 0) := by
    intro t
    by_cases h1 : t.val ≤ n
    · have h2 : t.val ≤ n + 1 := Nat.le_succ_of_le h1
      have h3 : t ≠ ⟨n + 1, hn⟩ := fun e => by rw [e] at h1; simp at h1
      simp [h1, h2, h3]
    · by_cases h3 : t = ⟨n + 1, hn⟩
      · subst h3; simp
      · have h2 : ¬ t.val ≤ n + 1 := fun h => h3 (Fin.ext (by simp only; omega))
        simp [h1, h2, h3]
  rw [Finset.sum_congr rfl (fun t _ => hsplit t), Finset.sum_add_distrib]
  congr 1
  rw [Finset.sum_ite_eq' Finset.univ (⟨n + 1, hn⟩ : Fin 128) (fun t => ∑ j : Fin 128, f (tileIdx t j))]
  simp

theorem runSum_last (f : Fin 16384 → EReal) : runSum f 127 = ∑ k, f k := by
  unfold runSum
  rw [sum_tiles]
  refine Finset.sum_congr rfl fun t _ => ?_
  have : t.val ≤ 127 := Nat.lt_succ_iff.mp t.isLt
  simp [this]

end Cert.Spec

end
-- ==== Proof.Val.Reg0.lean ====
/-
  The first kernel's two result arrays, at the ideal instance, as whole-array functions of the arrays it is entered with:
  block t of each result is what point t stores (rows 256·t … 256·t + 255), the sixteen blocks tile the 4096 rows, and
  the stored block is, row by row, the layer normalisation of the sum of the two activation rows, resp. that sum itself.
-/
import proofs.«173403_j85487029059846_1_alg».proof.Proof.KI.Region0
import proofs.«173403_j85487029059846_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## Layout casts read at an index -/

section Casts
variable {α : Type}

/-- An `[a]` vector cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Casts

/-! ## The body's payloads at an entry -/

/-- The sum of a block's row: the lane reduction at row `p`. -/
theorem rowSum_apply (v : FVec Ideal S256x4096 .f32) (hφ : FTy.f32 = FTy.f32 ∨ FTy.f32 = FTy.bf16)
    (hacc : (0x00000000#32 : BitVec 32) = 0x00000000#32) (p : Fin 256) :
    multiReduction .add [1] S256 v 0x00000000#32 reduces_S256x4096_S256 hφ hacc (ix1 p) = ∑ k : Fin 4096, v (ix2 p k) := by
  refine (Ideal.multiReduction_add_single v 0x00000000#32 reduces_S256x4096_S256 hφ hacc (ix1 p)).trans ?_
  refine Finset.sum_congr rfl fun k _ => congrArg v ?_
  exact Shape.idx_ext₂ rfl rfl

theorem ln_pay1_apply (x0 x1 : Vec Ideal S256x4096 .f32) (i : S256x4096.Idx) : k0_pay1 x0 x1 i = x0 i + x1 i := by
  unfold k0_pay1
  rw [shapeCast_self, shapeCast_self]
  rfl

theorem ln_pay3_apply (x0 x1 : Vec Ideal S256x4096 .f32) (i : S256x4096.Idx) : k0_pay3 x0 x1 i = x0 i + x1 i := by
  unfold k0_pay3
  exact ln_pay1_apply x0 x1 i

theorem rsqrt_apply' {s : Shape} {φ : FTy} (a : FVec Ideal s φ) (i : s.Idx) : rsqrt a i = Ideal.rsqrt (a i) := rfl

/-- Each row's sum divided by the row length, kept as a column. -/
def meanCol (h : FVec Ideal S256x4096 .f32) : FVec Ideal S256x1 .f32 :=
  divf (shapeCast S256x1 (multiReduction .add [1] S256 h 0x00000000#32 reduces_S256x4096_S256 (.inl rfl) rfl) shapeCasts_S256_S256x1)
    (broadcast S256x1 (Scalar.ofBits .f32 0x45800000#32))

theorem meanCol_apply (h : FVec Ideal S256x4096 .f32) (p : Fin 256) (u : Fin 1) :
    meanCol h (ix2 p u) = Ideal.div (∑ k : Fin 4096, h (ix2 p k)) Spec.cN := by
  unfold meanCol
  rw [divf_apply, shapeCast_a_a1_apply]
  exact congrArg (fun s => Ideal.div s Spec.cN) (rowSum_apply h _ _ p)

/-- A block minus its rows' means. -/
def centred (h : FVec Ideal S256x4096 .f32) : FVec Ideal S256x4096 .f32 :=
  subf h (broadcastTo S256x4096 (meanCol h) broadcasts_S256x1_S256x4096)

theorem centred_apply (h : FVec Ideal S256x4096 .f32) (p : Fin 256) (q : Fin 4096) :
    centred h (ix2 p q) = h (ix2 p q) - Ideal.div (∑ k : Fin 4096, h (ix2 p k)) Spec.cN := by
  unfold centred
  rw [subf_apply, broadcastTo_a1_ab_apply, meanCol_apply]

/-- The first payload's arithmetic, regrouped: the centred sum block, times the reciprocal root of its rows' mean
    squares plus the guard, times the scale row, plus the shift row. -/
theorem pay2_eq (x0 x1 : Vec Ideal S256x4096 .f32) (x2 x3 : Vec Ideal S1x4096 .f32) :
    k0_pay2 x0 x1 x2 x3
      = truncf .bf16 (addf (mulf (mulf (centred (k0_pay1 x0 x1))
            (broadcastTo S256x4096 (rsqrt (addf (meanCol (mulf (centred (k0_pay1 x0 x1)) (centred (k0_pay1 x0 x1))))
              (broadcast S256x1 (Scalar.ofBits .f32 0x3727C5AC#32)))) broadcasts_S256x1_S256x4096))
          (broadcastTo S256x4096 (shapeCast S1x4096 x2 shapeCasts_S1x4096_S1x4096) broadcasts_S1x4096_S256x4096))
          (broadcastTo S256x4096 (shapeCast S1x4096 x3 shapeCasts_S1x4096_S1x4096) broadcasts_S1x4096_S256x4096)) bitsLt_bf16_f32 := rfl

/-- The normalised block at an entry: the layer normalisation of the summed row. -/
theorem ln_pay2_apply (x0 x1 : Vec Ideal S256x4096 .f32) (x2 x3 : Vec Ideal S1x4096 .f32) (p : Fin 256) (q : Fin 4096) :
    k0_pay2 x0 x1 x2 x3 (ix2 p q)
      = Spec.lnRow (fun j => x0 (ix2 p j) + x1 (ix2 p j)) (fun j => x2 (ix2 0 j)) (fun j => x3 (ix2 0 j)) q := by
  rw [pay2_eq]
  simp only [truncf_apply, addf_apply, mulf_apply, broadcast_apply, shapeCast_self, rsqrt_apply',
    broadcastTo_1b_ab_apply, broadcastTo_a1_ab_apply, centred_apply, meanCol_apply, ln_pay1_apply]
  rfl

/-! ## The blocks over the grid -/

/-- The zero offsets of a whole-block rectangle, however spelt. -/
theorem hz_blk0 : (![0, 0] : Fin 2 → Nat) = fun _ => 0 := funext fun a => by fin_cases a <;> rfl

/-- The printed index maps, decided over the sixteen points: the activations' and the results' blocks are block row
    `t`, all columns; the two parameter rows' block is the whole row at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `a` of block row `t`, as a row of the whole array. -/
def rowOf (t : Fin cfg0.N) (a : Fin 256) : Fin 4096 := ⟨256 * t.val + a.val, by have h : t.val < 16 := t.isLt; omega⟩

theorem emb0_0 (t : Fin cfg0.N) (a : Fin 256) (k : Fin 4096) :
    ((cfg0.win 0).blk t).view.emb (ix2 a k) = ix2 (rowOf t a) k := by
  obtain ⟨e0, e1, -⟩ := idx_facts0 t
  funext ax; apply Fin.ext
  match ax with
  | ⟨0, _⟩ => show win0_0.index t (0 : Fin 2) * 256 + 1 * a.val = 256 * t.val + a.val; omega
  | ⟨1, _⟩ => show win0_0.index t (1 : Fin 2) * 4096 + 1 * k.val = k.val; omega

theorem emb0_1 (t : Fin cfg0.N) (a : Fin 256) (k : Fin 4096) :
    ((cfg0.win 1).blk t).view.emb (ix2 a k) = ix2 (rowOf t a) k := by
  obtain ⟨-, -, e0, e1, -⟩ := idx_facts0 t
  funext ax; apply Fin.ext
  match ax with
  | ⟨0, _⟩ => show win0_1.index t (0 : Fin 2) * 256 + 1 * a.val = 256 * t.val + a.val; omega
  | ⟨1, _⟩ => show win0_1.index t (1 : Fin 2) * 4096 + 1 * k.val = k.val; omega

theorem emb0_2 (t : Fin cfg0.N) (u : Fin 1) (k : Fin 4096) :
    ((cfg0.win 2).blk t).view.emb (ix2 u k) = ix2 (0 : Fin 1) k := by
  obtain ⟨-, -, -, -, e0, e1, -⟩ := idx_facts0 t
  funext ax; apply Fin.ext
  match ax with
  | ⟨0, _⟩ => show win0_2.index t (0 : Fin 2) * 1 + 1 * u.val = 0; omega
  | ⟨1, _⟩ => show win0_2.index t (1 : Fin 2) * 4096 + 1 * k.val = k.val; omega

theorem emb0_3 (t : Fin cfg0.N) (u : Fin 1) (k : Fin 4096) :
    ((cfg0.win 3).blk t).view.emb (ix2 u k) = ix2 (0 : Fin 1) k := by
  obtain ⟨-, -, -, -, -, -, e0, e1, -⟩ := idx_facts0 t
  funext ax; apply Fin.ext
  match ax with
  | ⟨0, _⟩ => show win0_3.index t (0 : Fin 2) * 1 + 1 * u.val = 0; omega
  | ⟨1, _⟩ => show win0_3.index t (1 : Fin 2) * 4096 + 1 * k.val = k.val; omega

theorem emb0_4 (t : Fin cfg0.N) (a : Fin 256) (k : Fin 4096) :
    ((cfg0.win 4).blk t).view.emb (ix2 a k) = ix2 (rowOf t a) k := by
  obtain ⟨-, -, -, -, -, -, -, -, e0, e1, -⟩ := idx_facts0 t
  funext ax; apply Fin.ext
  match ax with
  | ⟨0, _⟩ => show win0_4.index t (0 : Fin 2) * 256 + 1 * a.val = 256 * t.val + a.val; omega
  | ⟨1, _⟩ => show win0_4.index t (1 : Fin 2) * 4096 + 1 * k.val = k.val; omega

theorem emb0_5 (t : Fin cfg0.N) (a : Fin 256) (k : Fin 4096) :
    ((cfg0.win 5).blk t).view.emb (ix2 a k) = ix2 (rowOf t a) k := by
  obtain ⟨-, -, -, -, -, -, -, -, -, -, e0, e1⟩ := idx_facts0 t
  funext ax; apply Fin.ext
  match ax with
  | ⟨0, _⟩ => show win0_5.index t (0 : Fin 2) * 256 + 1 * a.val = 256 * t.val + a.val; omega
  | ⟨1, _⟩ => show win0_5.index t (1 : Fin 2) * 4096 + 1 * k.val = k.val; omega

variable (V : (c : Dev nD) → (b : Ref sig .tc) → Buf (Elt Ideal) ((c : Thread nD τ).loc b))

/-- The arrays the first kernel is entered with, at their literal types. -/
abbrev xArr (c : Dev nD) : Vec Ideal S4096x4096 .f32 := V c main_v0
abbrev rArr (c : Dev nD) : Vec Ideal S4096x4096 .f32 := V c main_v1
abbrev gArr (c : Dev nD) : Vec Ideal S1x4096 .f32 := V c main_v2
abbrev bArr (c : Dev nD) : Vec Ideal S1x4096 .f32 := V c main_v3

/-! ## The input blocks at an entry: the arrays where the block's rectangle says -/

theorem iblk0_0_apply (c : Dev nD) (t : Fin cfg0.N) (a : Fin 256) (k : Fin 4096) :
    iblk0 V c 0 t (ix2 a k) = xArr V c (ix2 (rowOf t a) k) := by
  show xArr V c (((cfg0.win 0).blk t).view.emb (ix2 a k)) = _
  rw [emb0_0]

theorem iblk0_1_apply (c : Dev nD) (t : Fin cfg0.N) (a : Fin 256) (k : Fin 4096) :
    iblk0 V c 1 t (ix2 a k) = rArr V c (ix2 (rowOf t a) k) := by
  show rArr V c (((cfg0.win 1).blk t).view.emb (ix2 a k)) = _
  rw [emb0_1]

theorem iblk0_2_apply (c : Dev nD) (t : Fin cfg0.N) (u : Fin 1) (k : Fin 4096) :
    iblk0 V c 2 t (ix2 u k) = gArr V c (ix2 0 k) := by
  show gArr V c (((cfg0.win 2).blk t).view.emb (ix2 u k)) = _
  rw [emb0_2]

theorem iblk0_3_apply (c : Dev nD) (t : Fin cfg0.N) (u : Fin 1) (k : Fin 4096) :
    iblk0 V c 3 t (ix2 u k) = bArr V c (ix2 0 k) := by
  show bArr V c (((cfg0.win 3).blk t).view.emb (ix2 u k)) = _
  rw [emb0_3]

/-! ## The two results as whole-array functions of the entry arrays -/

/-- The normalised activations, entry (p, q): the layer normalisation of row `p` of the sum. -/
def ln4 (c : Dev nD) (p q : Fin 4096) : EReal :=
  Spec.lnRow (fun j => xArr V c (ix2 p j) + rArr V c (ix2 p j)) (fun j => gArr V c (ix2 0 j)) (fun j => bArr V c (ix2 0 j)) q

def G4 (c : Dev nD) : S4096x4096.Idx → EReal := fun i => ln4 V c (i 0) (i 1)

/-- The residual sum. -/
def G5 (c : Dev nD) : S4096x4096.Idx → EReal := fun i => xArr V c i + rArr V c i

/-- What point `t` writes back to the first result is block `t` of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz_blk0]
  simp only [View.ld_unit_zero (S := S256x4096) hz_blk0, View.ld_unit_zero (S := S1x4096) hz_blk0]
  funext j
  obtain ⟨a, k, rfl⟩ : ∃ (a : Fin 256) (k : Fin 4096), j = ix2 a k := ⟨j 0, j 1, eq_ix2 (n0 := 256) (n1 := 4096) j⟩
  show k0_pay2 (iblk0 V c 0 t) (iblk0 V c 1 t) (iblk0 V c 2 t) (iblk0 V c 3 t) (ix2 a k)
    = G4 V c (((cfg0.win 4).blk t).view.emb (ix2 a k))
  rw [ln_pay2_apply, emb0_4]
  simp only [iblk0_0_apply, iblk0_1_apply, iblk0_2_apply, iblk0_3_apply]
  rfl

/-- What point `t` writes back to the second result is block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz_blk0]
  simp only [View.ld_unit_zero (S := S256x4096) hz_blk0]
  funext j
  obtain ⟨a, k, rfl⟩ : ∃ (a : Fin 256) (k : Fin 4096), j = ix2 a k := ⟨j 0, j 1, eq_ix2 (n0 := 256) (n1 := 4096) j⟩
  show k0_pay3 (iblk0 V c 0 t) (iblk0 V c 1 t) (ix2 a k)
    = G5 V c (((cfg0.win 5).blk t).view.emb (ix2 a k))
  rw [ln_pay3_apply, emb0_5, iblk0_0_apply, iblk0_1_apply]
  rfl

/-- Every row lies in some point's block: row `r` in block row `r / 256`. -/
theorem row_split (i : S4096x4096.Idx) :
    ∃ (t : Fin cfg0.N) (a : Fin 256) (k : Fin 4096), (i 0).val = 256 * t.val + a.val ∧ (i 1).val = k.val := by
  have hi0 : (i 0).val < 4096 := (i 0).isLt
  exact ⟨⟨(i 0).val / 256, by show _ < 16; omega⟩, ⟨(i 0).val % 256, by omega⟩, ⟨(i 1).val, (i 1).isLt⟩,
    by show (i 0).val = 256 * ((i 0).val / 256) + (i 0).val % 256; omega, rfl⟩

theorem cover4 (i : S4096x4096.Idx) : ∃ t : Fin cfg0.N, (cfg0.win 4).flush t = true ∧ i ∈ ((cfg0.win 4).blk t).view.set := by
  obtain ⟨t, a, k, ha, hk⟩ := row_split i
  refine ⟨t, flush0_4 t, ?_⟩
  have e : ((cfg0.win 4).blk t).view.emb (ix2 a k) = i := by
    rw [emb0_4]; exact Shape.idx_ext₂ ha.symm hk.symm
  have h := ((cfg0.win 4).blk t).view.emb_mem_set (ix2 a k)
  rwa [e] at h

theorem cover5 (i : S4096x4096.Idx) : ∃ t : Fin cfg0.N, (cfg0.win 5).flush t = true ∧ i ∈ ((cfg0.win 5).blk t).view.set := by
  obtain ⟨t, a, k, ha, hk⟩ := row_split i
  refine ⟨t, flush0_5 t, ?_⟩
  have e : ((cfg0.win 5).blk t).view.emb (ix2 a k) = i := by
    rw [emb0_5]; exact Shape.idx_ext₂ ha.symm hk.symm
  have h := ((cfg0.win 5).blk t).view.emb_mem_set (ix2 a k)
  rwa [e] at h

/-- The normalised activations the first kernel leaves, entry (p, q). -/
theorem arr4_apply (c : Dev nD) (p q : Fin 4096) :
    ((dat0 (F := Ideal) V c).arrAt 4 cfg0.N : S4096x4096.Idx → EReal) (ix2 p q)
      = Spec.lnRow (fun j => xArr V c (ix2 p j) + rArr V c (ix2 p j)) (fun j => gArr V c (ix2 0 j)) (fun j => bArr V c (ix2 0 j)) q := by
  have h := (dat0 (F := Ideal) V c).arrAt_eq_of_cover 4 (G4 V c) (fun t _ => flushed4_eq V c t) (fun i => cover4 i)
  exact congrFun h (ix2 p q)

/-- The residual sum the first kernel leaves, entry (p, q). -/
theorem arr5_apply (c : Dev nD) (p q : Fin 4096) :
    ((dat0 (F := Ideal) V c).arrAt 5 cfg0.N : S4096x4096.Idx → EReal) (ix2 p q)
      = xArr V c (ix2 p q) + rArr V c (ix2 p q) := by
  have h := (dat0 (F := Ideal) V c).arrAt_eq_of_cover 5 (G5 V c) (fun t _ => flushed5_eq V c t) (fun i => cover5 i)
  exact congrFun h (ix2 p q)

end Cert.KernelIdeal.Val

end
-- ==== Proof.Val.Pieces1.lean ====
/-
  What each case of the second kernel's body leaves in the accumulator and in the output buffer, as the body's
  arithmetic applied to the blocks it loads; and that arithmetic read at an entry (p, q) at the ideal instance: the
  step's update adds to the accumulator's entry the sum over the 128 hidden units of the tile of
  max(Σ_a l(p,a)·W₁(a,j) + b₁(j), 0) · W₂(j,q); the last step's store adds the output bias and the residual.
-/
import proofs.«173403_j85487029059846_1_alg».proof.Proof.KI.Region1
import proofs.«173403_j85487029059846_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

section Pieces
variable {F : FTy → Type} [FloatOps F]

/-- The zero offsets of a whole-block rectangle, however spelt. -/
theorem hz2 : (![0, 0] : Fin 2 → Nat) = fun _ => 0 := funext fun a => by fin_cases a <;> rfl

theorem sout1_A_eq (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) :
    sout1_A_0 c i arg2 harg2 arg3 harg3 arg4 harg4 arg5 harg5 arg6 harg6 arg7 harg7 arg8 harg8 arg9 harg9 hc0 hc1 x0 x1 x2 x3 x4 x5 = k1_pay2 x0 x1 x2 x3 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S512x4096) hz2, View.readCov_unit_zero (S := S512x4096) _ hz2]
  simp only [View.readAt_eq_ld, harg2.read_unread, harg3.read_unread, harg4.read_unread, harg5.read_unread,
    View.ld_unit_zero (S := S512x4096) hz2, View.ld_unit_zero (S := S4096x128) hz2, View.ld_unit_zero (S := S1x128) hz2,
    View.ld_unit_zero (S := S128x4096) hz2]

theorem sout1_B_eq (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : ¬cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    sout1_B_0 c i arg2 harg2 arg3 harg3 arg4 harg4 arg5 harg5 arg6 harg6 arg7 harg7 arg8 harg8 arg9 harg9 hc0 hc1 x0 x1 x2 x3 x4 x5 xs0 = k1_pay2 x0 x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S512x4096) hz2]
  simp only [View.readAt_eq_ld, harg2.read_unread, harg3.read_unread, harg4.read_unread, harg5.read_unread, harg9.read_unread,
    View.ld_unit_zero (S := S512x4096) hz2, View.ld_unit_zero (S := S4096x128) hz2, View.ld_unit_zero (S := S1x128) hz2,
    View.ld_unit_zero (S := S128x4096) hz2]

theorem sout1_C_eq (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    sout1_C_0 c i arg2 harg2 arg3 harg3 arg4 harg4 arg5 harg5 arg6 harg6 arg7 harg7 arg8 harg8 arg9 harg9 hc0 hc1 x0 x1 x2 x3 x4 x5 xs0 = k1_pay2 x0 x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S512x4096) hz2]
  simp only [View.readAt_eq_ld, harg2.read_unread, harg3.read_unread, harg4.read_unread, harg5.read_unread, harg9.read_unread,
    View.ld_unit_zero (S := S512x4096) hz2, View.ld_unit_zero (S := S4096x128) hz2, View.ld_unit_zero (S := S1x128) hz2,
    View.ld_unit_zero (S := S128x4096) hz2]

theorem out1_C_eq (c : Dev nD) (i : grid1.Coords) (arg2 : Memref sig .tc .vmem S512x4096 .bf16) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x4096 .f32) (harg5 : arg5.IsWhole) (arg6 : Memref sig .tc .vmem S1x4096 .f32) (harg6 : arg6.IsWhole) (arg7 : Memref sig .tc .vmem S512x4096 .bf16) (harg7 : arg7.IsWhole) (arg8 : Memref sig .tc .vmem S512x4096 .f32) (harg8 : arg8.IsWhole) (arg9 : Memref sig .tc .vmem S512x4096 .f32) (harg9 : arg9.IsWhole) (hc0 : ¬cond1_0 i) (hc1 : cond1_1 i)
    (x0 : Vec F S512x4096 .bf16) (x1 : Vec F S4096x128 .f32) (x2 : Vec F S1x128 .f32) (x3 : Vec F S128x4096 .f32) (x4 : Vec F S1x4096 .f32) (x5 : Vec F S512x4096 .bf16) (xs0 : Vec F S512x4096 .f32) :
    out1_C_6 c i arg2 harg2 arg3 harg3 arg4 harg4 arg5 harg5 arg6 harg6 arg7 harg7 arg8 harg8 arg9 harg9 hc0 hc1 x0 x1 x2 x3 x4 x5 xs0 = k1_pay3 (k1_pay2 x0 x1 x2 x3 xs0) x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S512x4096) hz2]
  simp only [View.readCov_unit_zero (S := S512x4096) _ hz2, View.readAt_eq_ld, harg2.read_unread, harg3.read_unread,
    harg4.read_unread, harg5.read_unread, harg6.read_unread, harg7.read_unread, harg9.read_unread,
    View.ld_unit_zero (S := S512x4096) hz2, View.ld_unit_zero (S := S4096x128) hz2, View.ld_unit_zero (S := S1x128) hz2,
    View.ld_unit_zero (S := S128x4096) hz2, View.ld_unit_zero (S := S1x4096) hz2]

end Pieces

/-! ## The arithmetic at an entry, on the extended reals -/

section Dots

/-- The first product's left operand index: its row is the output's row. -/
theorem lhs_dot1_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
/-- its column is the contraction index. -/
theorem lhs_dot1_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
/-- The first product's right operand index: its row is the contraction index, -/
theorem rhs_dot1_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
/-- its column is the output's column. -/
theorem rhs_dot1_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first product into a zero accumulator, at an entry: the sum over the 4096 model coordinates. -/
theorem dot1_apply (l : FVec Ideal S512x4096 .bf16) (r : FVec Ideal S4096x128 .bf16) (p : Fin 512) (j : Fin 128) :
    matmul dot_S512x4096_S4096x128_S512x128_1_0_0_1_n_n none l r (constant S512x128 .f32 0x00000000#32) (ix2 p j)
      = ∑ a : Fin 4096, l (ix2 p a) * r (ix2 a j) := by
  simp only [matmul]
  rw [Ideal.matmul_constant_zero_apply, ← Equiv.sum_comp (ValueIdx.contrEquiv1 dot_S512x4096_S4096x128_S512x128_1_0_0_1_n_n 4096 rfl rfl).symm]
  refine Finset.sum_congr rfl fun k _ => ?_
  have hk := ValueIdx.contrEquiv1_symm_val dot_S512x4096_S4096x128_S512x128_1_0_0_1_n_n 4096 rfl rfl k
  have el : dot_S512x4096_S4096x128_S512x128_1_0_0_1_n_n.lhsIdx (ix2 p j) ((ValueIdx.contrEquiv1 dot_S512x4096_S4096x128_S512x128_1_0_0_1_n_n 4096 rfl rfl).symm k) = ix2 p k := funext fun a => Fin.ext (by
    match a with
    | ⟨0, _⟩ => exact lhs_dot1_0 _ _
    | ⟨1, _⟩ => exact (lhs_dot1_1 _ _).trans hk)
  have er : dot_S512x4096_S4096x128_S512x128_1_0_0_1_n_n.rhsIdx (ix2 p j) ((ValueIdx.contrEquiv1 dot_S512x4096_S4096x128_S512x128_1_0_0_1_n_n 4096 rfl rfl).symm k) = ix2 k j := funext fun a => Fin.ext (by
    match a with
    | ⟨0, _⟩ => exact (rhs_dot1_0 _ _).trans hk
    | ⟨1, _⟩ => exact rhs_dot1_1 _ _)
  rw [el, er]

/-- The second product's left operand index: its row is the output's row, -/
theorem lhs_dot2_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
/-- its column is the contraction index. -/
theorem lhs_dot2_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
/-- The second product's right operand index: its row is the contraction index, -/
theorem rhs_dot2_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
/-- its column is the output's column. -/
theorem rhs_dot2_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-- The second product into a zero accumulator, at an entry: the sum over the tile's 128 hidden units. -/
theorem dot2_apply (l : FVec Ideal S512x128 .bf16) (r : FVec Ideal S128x4096 .bf16) (p : Fin 512) (q : Fin 4096) :
    matmul dot_S512x128_S128x4096_S512x4096_1_0_0_1_n_n none l r (constant S512x4096 .f32 0x00000000#32) (ix2 p q)
      = ∑ j : Fin 128, l (ix2 p j) * r (ix2 j q) := by
  simp only [matmul]
  rw [Ideal.matmul_constant_zero_apply, ← Equiv.sum_comp (ValueIdx.contrEquiv1 dot_S512x128_S128x4096_S512x4096_1_0_0_1_n_n 128 rfl rfl).symm]
  refine Finset.sum_congr rfl fun k _ => ?_
  have hk := ValueIdx.contrEquiv1_symm_val dot_S512x128_S128x4096_S512x4096_1_0_0_1_n_n 128 rfl rfl k
  have el : dot_S512x128_S128x4096_S512x4096_1_0_0_1_n_n.lhsIdx (ix2 p q) ((ValueIdx.contrEquiv1 dot_S512x128_S128x4096_S512x4096_1_0_0_1_n_n 128 rfl rfl).symm k) = ix2 p k := funext fun a => Fin.ext (by
    match a with
    | ⟨0, _⟩ => exact lhs_dot2_0 _ _
    | ⟨1, _⟩ => exact (lhs_dot2_1 _ _).trans hk)
  have er : dot_S512x128_S128x4096_S512x4096_1_0_0_1_n_n.rhsIdx (ix2 p q) ((ValueIdx.contrEquiv1 dot_S512x128_S128x4096_S512x4096_1_0_0_1_n_n 128 rfl rfl).symm k) = ix2 k q := funext fun a => Fin.ext (by
    match a with
    | ⟨0, _⟩ => exact (rhs_dot2_0 _ _).trans hk
    | ⟨1, _⟩ => exact rhs_dot2_1 _ _)
  rw [el, er]

end Dots

theorem pay1_apply (i : S512x4096.Idx) : (k1_pay1 (F := Ideal) : S512x4096.Idx → EReal) i = 0 := by
  unfold k1_pay1
  simp only [shapeCast_self]
  exact Ideal.ofBits_zero_f32

theorem pay2_apply (x0 : Vec Ideal S512x4096 .bf16) (x1 : Vec Ideal S4096x128 .f32) (x2 : Vec Ideal S1x128 .f32)
    (x3 : Vec Ideal S128x4096 .f32) (acc : Vec Ideal S512x4096 .f32) (p : Fin 512) (q : Fin 4096) :
    (k1_pay2 (F := Ideal) x0 x1 x2 x3 acc : S512x4096.Idx → EReal) (ix2 p q)
      = acc (ix2 p q) + ∑ j : Fin 128, max ((∑ a : Fin 4096, x0 (ix2 p a) * x1 (ix2 a j)) + x2 (ix2 0 j)) 0 * x3 (ix2 j q) := by
  unfold k1_pay2
  simp only [shapeCast_self]
  refine congrArg (acc (ix2 p q) + ·) ?_
  refine (dot2_apply _ _ p q).trans ?_
  refine Finset.sum_congr rfl fun j _ => ?_
  show max ((matmul (F := Ideal) dot_S512x4096_S4096x128_S512x128_1_0_0_1_n_n none x0 (truncf (F := Ideal) .bf16 x1 bitsLt_bf16_f32) (constant (F := Ideal) S512x128 .f32 0x00000000#32) (ix2 p j) : EReal)
      + (broadcastTo S512x128 x2 broadcasts_S1x128_S512x128 (ix2 p j) : EReal)) (Ideal.ofBits .f32 0x00000000#32 : EReal) * (x3 (ix2 j q) : EReal) = _
  rw [dot1_apply, broadcastTo_1b_ab_apply, Ideal.ofBits_zero_f32]
  rfl

theorem pay3_apply (acc : Vec Ideal S512x4096 .f32) (x4 : Vec Ideal S1x4096 .f32) (x5 : Vec Ideal S512x4096 .bf16)
    (p : Fin 512) (q : Fin 4096) :
    (k1_pay3 (F := Ideal) acc x4 x5 : S512x4096.Idx → EReal) (ix2 p q) = acc (ix2 p q) + x4 (ix2 0 q) + x5 (ix2 p q) := by
  unfold k1_pay3
  simp only [shapeCast_self]
  show (acc (ix2 p q) : EReal) + (broadcastTo S512x4096 x4 broadcasts_S1x4096_S512x4096 (ix2 p q) : EReal) + (x5 (ix2 p q) : EReal) = _
  rw [broadcastTo_1b_ab_apply]

end Cert.KernelIdeal.Val

end
-- ==== Proof.Val.Reg1.lean ====
/-
  The second kernel's result array, at the ideal instance, as a whole-array function of the arrays it is entered with.
  Point (i, k) of the 8 × 128 grid handles rows 512·i … 512·i + 511 and hidden units 128·k … 128·k + 127; after it the
  accumulator holds, at (p, q), the sum over the hidden units of tiles 0 … k of hidden(row)·W₂ (induction on k: reset and
  first tile at k = 0, one more tile at each later step); at k = 127 that is the whole sum, stored with the output bias and
  the residual into the output block, the only point of the row tile at which the block is written back; the eight
  blocks tile the 4096 rows.
-/
import proofs.«173403_j85487029059846_1_alg».proof.Proof.Val.Pieces1

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the second kernel is entered with, at their literal types. -/
abbrev lnArr (c : Dev nD) : Vec Ideal S4096x4096 .bf16 := V c main_v6_0
abbrev w1Arr (c : Dev nD) : Vec Ideal S4096x16384 .f32 := V c main_arg4
abbrev b1Arr (c : Dev nD) : Vec Ideal S1x16384 .f32 := V c main_v4
abbrev w2Arr (c : Dev nD) : Vec Ideal S16384x4096 .f32 := V c main_arg6
abbrev b2Arr (c : Dev nD) : Vec Ideal S1x4096 .f32 := V c main_v5
abbrev resArr (c : Dev nD) : Vec Ideal S4096x4096 .bf16 := V c main_v6_1

/-- The blocks the body loads at point `t`, at their literal types. -/
abbrev lnBlk (c : Dev nD) (t : Fin cfg1.N) : Vec Ideal S512x4096 .bf16 := iblk1 V c 0 t
abbrev w1Blk (c : Dev nD) (t : Fin cfg1.N) : Vec Ideal S4096x128 .f32 := iblk1 V c 1 t
abbrev b1Blk (c : Dev nD) (t : Fin cfg1.N) : Vec Ideal S1x128 .f32 := iblk1 V c 2 t
abbrev w2Blk (c : Dev nD) (t : Fin cfg1.N) : Vec Ideal S128x4096 .f32 := iblk1 V c 3 t
abbrev b2Blk (c : Dev nD) (t : Fin cfg1.N) : Vec Ideal S1x4096 .f32 := iblk1 V c 4 t
abbrev resBlk (c : Dev nD) (t : Fin cfg1.N) : Vec Ideal S512x4096 .bf16 := iblk1 V c 5 t

/-- The printed index maps over the grid: point `t` is row tile `t / 128`, hidden tile `t % 128`. -/
theorem idx1_rows : ∀ t : Fin cfg1.N,
    win1_0.index t (0 : Fin 2) = t.val / 128 ∧ win1_0.index t (1 : Fin 2) = 0
    ∧ win1_5.index t (0 : Fin 2) = t.val / 128 ∧ win1_5.index t (1 : Fin 2) = 0
    ∧ win1_6.index t (0 : Fin 2) = t.val / 128 ∧ win1_6.index t (1 : Fin 2) = 0
    ∧ win1_4.index t (0 : Fin 2) = 0 ∧ win1_4.index t (1 : Fin 2) = 0 :=
  (by decide +kernel : ∀ t : Fin grid1.N, _)

theorem idx1_tiles : ∀ t : Fin cfg1.N,
    win1_1.index t (0 : Fin 2) = 0 ∧ win1_1.index t (1 : Fin 2) = t.val % 128
    ∧ win1_2.index t (0 : Fin 2) = 0 ∧ win1_2.index t (1 : Fin 2) = t.val % 128
    ∧ win1_3.index t (0 : Fin 2) = t.val % 128 ∧ win1_3.index t (1 : Fin 2) = 0 :=
  (by decide +kernel : ∀ t : Fin grid1.N, _)

/-- Row `p` of point `t`'s row tile, in the whole array. -/
def rowIdx (t : Fin cfg1.N) (p : Fin 512) : Fin 4096 :=
  ⟨512 * (t.val / 128) + p.val, by have h : t.val < 1024 := lt_of_lt_of_eq t.isLt (show cfg1.N = 1024 from N_1); have := p.isLt; omega⟩

/-- Point `t`'s hidden tile. -/
def kIdx (t : Fin cfg1.N) : Fin 128 := ⟨t.val % 128, Nat.mod_lt _ (by decide)⟩

theorem lnBlk_apply (c : Dev nD) (t : Fin cfg1.N) (p : Fin 512) (a : Fin 4096) :
    lnBlk V c t (ix2 p a) = lnArr V c (ix2 (rowIdx t p) a) := by
  obtain ⟨e0, e1, -⟩ := idx1_rows t
  unfold lnBlk iblk1
  rw [View.read_apply]
  show V c main_v6_0 _ = V c main_v6_0 _
  congr 1
  funext d
  apply Fin.ext
  match d with
  | ⟨0, _⟩ => show win1_0.index t (0 : Fin 2) * 512 + 1 * p.val = 512 * (t.val / 128) + p.val; rw [e0]; omega
  | ⟨1, _⟩ => show win1_0.index t (1 : Fin 2) * 4096 + 1 * a.val = a.val; rw [e1]; omega

theorem resBlk_apply (c : Dev nD) (t : Fin cfg1.N) (p : Fin 512) (q : Fin 4096) :
    resBlk V c t (ix2 p q) = resArr V c (ix2 (rowIdx t p) q) := by
  obtain ⟨-, -, e0, e1, -⟩ := idx1_rows t
  unfold resBlk iblk1
  rw [View.read_apply]
  show V c main_v6_1 _ = V c main_v6_1 _
  congr 1
  funext d
  apply Fin.ext
  match d with
  | ⟨0, _⟩ => show win1_5.index t (0 : Fin 2) * 512 + 1 * p.val = 512 * (t.val / 128) + p.val; rw [e0]; omega
  | ⟨1, _⟩ => show win1_5.index t (1 : Fin 2) * 4096 + 1 * q.val = q.val; rw [e1]; omega

theorem b2Blk_apply (c : Dev nD) (t : Fin cfg1.N) (q : Fin 4096) :
    b2Blk V c t (ix2 0 q) = b2Arr V c (ix2 0 q) := by
  obtain ⟨-, -, -, -, -, -, e0, e1⟩ := idx1_rows t
  unfold b2Blk iblk1
  rw [View.read_apply]
  show V c main_v5 _ = V c main_v5 _
  congr 1
  funext d
  apply Fin.ext
  match d with
  | ⟨0, _⟩ => show win1_4.index t (0 : Fin 2) * 1 + 1 * 0 = 0; rw [e0]
  | ⟨1, _⟩ => show win1_4.index t (1 : Fin 2) * 4096 + 1 * q.val = q.val; rw [e1]; omega

theorem w1Blk_apply (c : Dev nD) (t : Fin cfg1.N) (a : Fin 4096) (j : Fin 128) :
    w1Blk V c t (ix2 a j) = w1Arr V c (ix2 a (Spec.tileIdx (kIdx t) j)) := by
  obtain ⟨e0, e1, -⟩ := idx1_tiles t
  unfold w1Blk iblk1
  rw [View.read_apply]
  show V c main_arg4 _ = V c main_arg4 _
  congr 1
  funext d
  apply Fin.ext
  match d with
  | ⟨0, _⟩ => show win1_1.index t (0 : Fin 2) * 4096 + 1 * a.val = a.val; rw [e0]; omega
  | ⟨1, _⟩ => show win1_1.index t (1 : Fin 2) * 128 + 1 * j.val = 128 * (t.val % 128) + j.val; rw [e1]; omega

theorem b1Blk_apply (c : Dev nD) (t : Fin cfg1.N) (j : Fin 128) :
    b1Blk V c t (ix2 0 j) = b1Arr V c (ix2 0 (Spec.tileIdx (kIdx t) j)) := by
  obtain ⟨-, -, e0, e1, -⟩ := idx1_tiles t
  unfold b1Blk iblk1
  rw [View.read_apply]
  show V c main_v4 _ = V c main_v4 _
  congr 1
  funext d
  apply Fin.ext
  match d with
  | ⟨0, _⟩ => show win1_2.index t (0 : Fin 2) * 1 + 1 * 0 = 0; rw [e0]
  | ⟨1, _⟩ => show win1_2.index t (1 : Fin 2) * 128 + 1 * j.val = 128 * (t.val % 128) + j.val; rw [e1]; omega

theorem w2Blk_apply (c : Dev nD) (t : Fin cfg1.N) (j : Fin 128) (q : Fin 4096) :
    w2Blk V c t (ix2 j q) = w2Arr V c (ix2 (Spec.tileIdx (kIdx t) j) q) := by
  obtain ⟨-, -, -, -, e0, e1⟩ := idx1_tiles t
  unfold w2Blk iblk1
  rw [View.read_apply]
  show V c main_arg6 _ = V c main_arg6 _
  congr 1
  funext d
  apply Fin.ext
  match d with
  | ⟨0, _⟩ => show win1_3.index t (0 : Fin 2) * 128 + 1 * j.val = 128 * (t.val % 128) + j.val; rw [e0]; omega
  | ⟨1, _⟩ => show win1_3.index t (1 : Fin 2) * 4096 + 1 * q.val = q.val; rw [e1]; omega

/-- The summand of the second product at hidden unit `kk`, for row `r` and output column `q`. -/
def hidF (c : Dev nD) (r q : Fin 4096) : Fin 16384 → EReal := fun kk =>
  Spec.hidden (fun j => lnArr V c (ix2 r j)) (fun j k => w1Arr V c (ix2 j k)) (fun k => b1Arr V c (ix2 0 k)) kk * w2Arr V c (ix2 kk q)

/-- What one step adds at (p, q): the hidden tile's summands. -/
theorem step_eq (c : Dev nD) (t : Fin cfg1.N) (p : Fin 512) (q : Fin 4096) :
    (∑ j : Fin 128, max ((∑ a : Fin 4096, lnBlk V c t (ix2 p a) * w1Blk V c t (ix2 a j)) + b1Blk V c t (ix2 0 j)) 0 * w2Blk V c t (ix2 j q))
      = ∑ j : Fin 128, hidF V c (rowIdx t p) q (Spec.tileIdx (kIdx t) j) := by
  refine Finset.sum_congr rfl fun j _ => ?_
  have hs : (∑ a : Fin 4096, lnBlk V c t (ix2 p a) * w1Blk V c t (ix2 a j))
      = ∑ a : Fin 4096, lnArr V c (ix2 (rowIdx t p) a) * w1Arr V c (ix2 a (Spec.tileIdx (kIdx t) j)) :=
    Finset.sum_congr rfl fun a _ => by rw [lnBlk_apply V c t p a, w1Blk_apply V c t a j]
  rw [hs, w2Blk_apply V c t j q, b1Blk_apply V c t j]
  rfl

/-- The running sum at the first step of a row tile is the first tile's sum. -/
theorem runSum_first (f : Fin 16384 → EReal) (n : ℕ) (k : Fin 128) (hk : k.val = n % 128) (h0 : n % 128 = 0) :
    (0 : EReal) + ∑ j : Fin 128, f (Spec.tileIdx k j) = Spec.runSum f (n % 128) := by
  have e : k = 0 := Fin.ext (by rw [hk, h0]; rfl)
  subst e
  rw [h0, zero_add, Spec.runSum_zero]

/-- At a later step the running sum takes one more tile. -/
theorem runSum_step (f : Fin 16384 → EReal) (n : ℕ) (k : Fin 128) (hk : k.val = n % 128) (h0 : ¬n % 128 = 0) :
    Spec.runSum f ((n - 1) % 128) + ∑ j : Fin 128, f (Spec.tileIdx k j) = Spec.runSum f (n % 128) := by
  obtain ⟨m, hm⟩ : ∃ m, n % 128 = m + 1 := ⟨n % 128 - 1, by omega⟩
  have hm' : (n - 1) % 128 = m := by omega
  have hlt : m + 1 < 128 := by omega
  have e : k = ⟨m + 1, hlt⟩ := Fin.ext (by rw [hk, hm])
  subst e
  rw [hm, hm', Spec.runSum_succ f m hlt]

/-- Within a row tile the row of (t, p) does not move. -/
theorem rowIdx_pred (n : ℕ) (hn : n < cfg1.N) (hn' : n - 1 < cfg1.N) (h0 : ¬n % 128 = 0) (p : Fin 512) :
    rowIdx ⟨n - 1, hn'⟩ p = rowIdx ⟨n, hn⟩ p := by
  apply Fin.ext
  show 512 * ((n - 1) / 128) + p.val = 512 * (n / 128) + p.val
  have : (n - 1) / 128 = n / 128 := by omega
  rw [this]

/-- THE ACCUMULATOR after point `n`, at (p, q): the sum over the hidden tiles 0 … n % 128 of the row's summands. -/
theorem acc_inv (c : Dev nD) : ∀ (n : ℕ) (hn : n < cfg1.N) (p : Fin 512) (q : Fin 4096),
    ((outsAt1 V c n hn).2 : S512x4096.Idx → EReal) (ix2 p q) = Spec.runSum (hidF V c (rowIdx ⟨n, hn⟩ p) q) (n % 128) := by
  intro n
  induction n using Nat.strong_induction_on with
  | _ n ih =>
    intro hn p q
    by_cases h0 : n % 128 = 0
    · have h1 : ¬n % 128 = 127 := by omega
      rw [outsAt1_A V c ⟨n, hn⟩ h0 h1]
      dsimp only
      refine (congrFun (sout1_A_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) ((hcond1_0 ⟨n, hn⟩).mpr h0) (fun h => h1 ((hcond1_1 ⟨n, hn⟩).mp h)) (lnBlk V c ⟨n, hn⟩) (w1Blk V c ⟨n, hn⟩) (b1Blk V c ⟨n, hn⟩) (w2Blk V c ⟨n, hn⟩) (b2Blk V c ⟨n, hn⟩) (resBlk V c ⟨n, hn⟩)) (ix2 p q)).trans ?_
      refine (pay2_apply (lnBlk V c ⟨n, hn⟩) (w1Blk V c ⟨n, hn⟩) (b1Blk V c ⟨n, hn⟩) (w2Blk V c ⟨n, hn⟩) (k1_pay1 (F := Ideal)) p q).trans ?_
      rw [pay1_apply (ix2 p q), step_eq V c ⟨n, hn⟩ p q]
      exact runSum_first _ n (kIdx ⟨n, hn⟩) rfl h0
    · have hn' : n - 1 < cfg1.N := Nat.lt_of_le_of_lt (Nat.sub_le _ _) hn
      by_cases h1 : n % 128 = 127
      · rw [outsAt1_C V c ⟨n, hn⟩ h0 h1]
        dsimp only
        refine (congrFun (sout1_C_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) (fun h => h0 ((hcond1_0 ⟨n, hn⟩).mp h)) ((hcond1_1 ⟨n, hn⟩).mpr h1) (lnBlk V c ⟨n, hn⟩) (w1Blk V c ⟨n, hn⟩) (b1Blk V c ⟨n, hn⟩) (w2Blk V c ⟨n, hn⟩) (b2Blk V c ⟨n, hn⟩) (resBlk V c ⟨n, hn⟩) (outsAt1 V c (n - 1) hn').2) (ix2 p q)).trans ?_
        refine (pay2_apply (lnBlk V c ⟨n, hn⟩) (w1Blk V c ⟨n, hn⟩) (b1Blk V c ⟨n, hn⟩) (w2Blk V c ⟨n, hn⟩) (outsAt1 V c (n - 1) hn').2 p q).trans ?_
        rw [ih (n - 1) (by omega) hn' p q, step_eq V c ⟨n, hn⟩ p q, rowIdx_pred n hn hn' h0 p]
        exact runSum_step _ n (kIdx ⟨n, hn⟩) rfl h0
      · rw [outsAt1_B V c ⟨n, hn⟩ h0 h1]
        dsimp only
        refine (congrFun (sout1_B_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) scM1_0 (Memref.isWhole_whole _) (fun h => h0 ((hcond1_0 ⟨n, hn⟩).mp h)) (fun h => h1 ((hcond1_1 ⟨n, hn⟩).mp h)) (lnBlk V c ⟨n, hn⟩) (w1Blk V c ⟨n, hn⟩) (b1Blk V c ⟨n, hn⟩) (w2Blk V c ⟨n, hn⟩) (b2Blk V c ⟨n, hn⟩) (resBlk V c ⟨n, hn⟩) (outsAt1 V c (n - 1) hn').2) (ix2 p q)).trans ?_
        refine (pay2_apply (lnBlk V c ⟨n, hn⟩) (w1Blk V c ⟨n, hn⟩) (b1Blk V c ⟨n, hn⟩) (w2Blk V c ⟨n, hn⟩) (outsAt1 V c (n - 1) hn').2 p q).trans ?_
        rw [ih (n - 1) (by omega) hn' p q, step_eq V c ⟨n, hn⟩ p q, rowIdx_pred n hn hn' h0 p]
        exact runSum_step _ n (kIdx ⟨n, hn⟩) rfl h0

/-- The whole result array as one function of the arrays the kernel is entered with. -/
def Gout (c : Dev nD) : Vec Ideal S4096x4096 .f32 := fun i =>
  Spec.ffnRow (fun j => lnArr V c (ix2 ⟨(i 0).val, idx2_lt0 i⟩ j)) (fun j k => w1Arr V c (ix2 j k)) (fun k => b1Arr V c (ix2 0 k))
    (fun k q' => w2Arr V c (ix2 k q')) (fun q' => b2Arr V c (ix2 0 q')) (fun q' => resArr V c (ix2 ⟨(i 0).val, idx2_lt0 i⟩ q')) ⟨(i 1).val, idx2_lt1 i⟩

theorem Gout_apply (c : Dev nD) (r q : Fin 4096) :
    Gout V c (ix2 r q) = Spec.ffnRow (fun j => lnArr V c (ix2 r j)) (fun j k => w1Arr V c (ix2 j k)) (fun k => b1Arr V c (ix2 0 k))
      (fun k q' => w2Arr V c (ix2 k q')) (fun q' => b2Arr V c (ix2 0 q')) (fun q' => resArr V c (ix2 r q')) q := rfl

/-- What the last step of a row tile stores into the output block, at (p, q): the whole sum, the output bias, the residual. -/
theorem out_C_apply (c : Dev nD) (t : Fin cfg1.N) (h0 : ¬t.val % 128 = 0) (h1 : t.val % 128 = 127) (p : Fin 512) (q : Fin 4096) :
    ((outsAt1 V c t.val t.isLt).1 : S512x4096.Idx → EReal) (ix2 p q) = Gout V c (ix2 (rowIdx t p) q) := by
  have hn' : t.val - 1 < cfg1.N := Nat.lt_of_le_of_lt (Nat.sub_le _ _) t.isLt
  rw [outsAt1_C V c t h0 h1]
  dsimp only
  refine (congrFun (out1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (lnBlk V c t) (w1Blk V c t) (b1Blk V c t) (w2Blk V c t) (b2Blk V c t) (resBlk V c t) (outsAt1 V c (t.val - 1) hn').2) (ix2 p q)).trans ?_
  refine (pay3_apply (k1_pay2 (F := Ideal) (lnBlk V c t) (w1Blk V c t) (b1Blk V c t) (w2Blk V c t) (outsAt1 V c (t.val - 1) hn').2) (b2Blk V c t) (resBlk V c t) p q).trans ?_
  rw [pay2_apply (lnBlk V c t) (w1Blk V c t) (b1Blk V c t) (w2Blk V c t) (outsAt1 V c (t.val - 1) hn').2 p q, acc_inv V c (t.val - 1) hn' p q, step_eq V c t p q,
    rowIdx_pred t.val t.isLt hn' h0 p, runSum_step _ t.val (kIdx t) rfl h0, h1, Spec.runSum_last, b2Blk_apply V c t q, resBlk_apply V c t p q,
    Gout_apply]
  rfl

/-- WHAT A POINT WRITES BACK is its block of `Gout`. -/
theorem flushed6_eq (c : Dev nD) (t : Fin cfg1.N) (hf : (cfg1.win 6).flush t = true) :
    (dat1 (F := Ideal) V c).flushed 6 t = ((cfg1.win 6).blk t).view.read (Elt Ideal) (Gout V c) := by
  have h1 : t.val % 128 = 127 := (flush1_6 t).mp hf
  have h0 : ¬t.val % 128 = 0 := by omega
  obtain ⟨-, -, -, -, e0, e1, -⟩ := idx1_rows t
  show (cfg1.win 6).cut (grid1.coords t) ((dat1 (F := Ideal) V c).after 6 t) = _
  rw [after1_6]
  funext j
  obtain ⟨p, q, rfl⟩ : ∃ (p : Fin 512) (q : Fin 4096), j = (ix2 p q : S512x4096.Idx) := ⟨j 0, j 1, eq_ix2 j⟩
  rw [View.read_apply]
  have he : ((cfg1.win 6).blk t).view.emb (ix2 p q : S512x4096.Idx) = (ix2 (rowIdx t p) q : S4096x4096.Idx) := by
    funext d
    apply Fin.ext
    match d with
    | ⟨0, _⟩ => show win1_6.index t (0 : Fin 2) * 512 + 1 * p.val = 512 * (t.val / 128) + p.val; rw [e0]; omega
    | ⟨1, _⟩ => show win1_6.index t (1 : Fin 2) * 4096 + 1 * q.val = q.val; rw [e1]; omega
  rw [he]
  exact out_C_apply V c t h0 h1 p q

/-- The eight row tiles' blocks, each written back at its last step, cover the array. -/
theorem cover6 (i : S4096x4096.Idx) :
    ∃ t : Fin cfg1.N, (cfg1.win 6).flush t = true ∧ i ∈ ((cfg1.win 6).blk t).view.set := by
  have hi0 : (i 0).val < 4096 := idx2_lt0 i
  have hi1 : (i 1).val < 4096 := idx2_lt1 i
  have hN : cfg1.N = 1024 := N_1
  have hlt : 128 * ((i 0).val / 512) + 127 < cfg1.N := by rw [hN]; omega
  refine ⟨⟨128 * ((i 0).val / 512) + 127, hlt⟩, (flush1_6 _).mpr (by show (128 * ((i 0).val / 512) + 127) % 128 = 127; omega), ?_⟩
  obtain ⟨-, -, -, -, e0, e1, -⟩ := idx1_rows ⟨128 * ((i 0).val / 512) + 127, hlt⟩
  have e0' : win1_6.index ⟨128 * ((i 0).val / 512) + 127, hlt⟩ (0 : Fin 2) = (i 0).val / 512 := by
    rw [e0]; show (128 * ((i 0).val / 512) + 127) / 128 = (i 0).val / 512; omega
  show i ∈ ((View.whole main_v7).slice (win1_6.rect ⟨128 * ((i 0).val / 512) + 127, hlt⟩)).set
  rw [View.set_slice_whole, Rect.mem_set_unit]
  intro a
  match a with
  | ⟨0, _⟩ =>
    show win1_6.index ⟨128 * ((i 0).val / 512) + 127, hlt⟩ (0 : Fin 2) * 512 ≤ (i 0).val ∧ (i 0).val < win1_6.index ⟨128 * ((i 0).val / 512) + 127, hlt⟩ (0 : Fin 2) * 512 + 512
    rw [e0']; omega
  | ⟨1, _⟩ =>
    show win1_6.index ⟨128 * ((i 0).val / 512) + 127, hlt⟩ (1 : Fin 2) * 4096 ≤ (i 1).val ∧ (i 1).val < win1_6.index ⟨128 * ((i 0).val / 512) + 127, hlt⟩ (1 : Fin 2) * 4096 + 4096
    rw [e1]; omega

/-- The second kernel's result, entry (p, q). -/
theorem arr6_apply (c : Dev nD) (p q : Fin 4096) :
    ((dat1 (F := Ideal) V c).arrAt 6 cfg1.N : S4096x4096.Idx → EReal) (ix2 p q)
      = Spec.ffnRow (fun j => lnArr V c (ix2 p j)) (fun j k => w1Arr V c (ix2 j k)) (fun k => b1Arr V c (ix2 0 k))
          (fun k q' => w2Arr V c (ix2 k q')) (fun q' => b2Arr V c (ix2 0 q')) (fun q' => resArr V c (ix2 p q')) q := by
  have h := (dat1 (F := Ideal) V c).arrAt_eq_of_cover 6 (Gout V c) (flushed6_eq V c) cover6
  exact (congrFun h (ix2 p q)).trans (Gout_apply V c p q)

end Cert.KernelIdeal.Val

end
-- ==== Proof.Val.Bridge.lean ====
/-
  The kernel program's result, at the ideal instance, entry (b, s, q), from the boundary contents of the run: the final
  reshape reads the second kernel's result at row 2048·b + s; that kernel was entered with the first kernel's two results,
  the two weight matrices as launched and the two biases reshaped to one row; the first kernel with the two
  activations reshaped to 4096 rows and the normalisation's parameters reshaped to one row. Composed, the entry is
  the whole layer of `Spec.outRow` on row (b, s) of the arguments.
-/
import proofs.«173403_j85487029059846_1_alg».proof.Proof.KI.Launch
import proofs.«173403_j85487029059846_1_alg».proof.Proof.Val.Reg0
import proofs.«173403_j85487029059846_1_alg».proof.Proof.Val.Reg1

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! ## The reshapes read at an index -/

/-- Row `2048·b + s` of the 4096-row view of a `[2, 2048, 4096]` array is its row `(b, s)`. -/
theorem bridge_cast_3_2 {α : Type} (x : S2x2048x4096.Idx → α) (h : S2x2048x4096.ShapeCasts S4096x4096)
    (bb : Fin 2) (s : Fin 2048) (q : Fin 4096) (p : Fin 4096) (hp : p.val = 2048 * bb.val + s.val) :
    shapeCast S4096x4096 x h (ix2 p q) = x (ix3 bb s q) :=
  shapeCast_apply x h _ _ (by
    rw [Shape.rowMajor_val_three, Shape.rowMajor_val_two]
    show (bb.val * 2048 + s.val) * 4096 + q.val = p.val * 4096 + q.val
    rw [hp, Nat.mul_comm 2048 bb.val])

/-- Row `(b, s)` of the `[2, 2048, 4096]` view of a 4096-row array is its row `2048·b + s`. -/
theorem bridge_cast_2_3 {α : Type} (y : S4096x4096.Idx → α) (h : S4096x4096.ShapeCasts S2x2048x4096)
    (bb : Fin 2) (s : Fin 2048) (q : Fin 4096) (p : Fin 4096) (hp : p.val = 2048 * bb.val + s.val) :
    shapeCast S2x2048x4096 y h (ix3 bb s q) = y (ix2 p q) :=
  shapeCast_apply y h _ _ (by
    rw [Shape.rowMajor_val_three, Shape.rowMajor_val_two]
    show p.val * 4096 + q.val = (bb.val * 2048 + s.val) * 4096 + q.val
    rw [hp, Nat.mul_comm 2048 bb.val])

variable (m : (ℓ : Loc nD τ sig) → Buf (Elt Ideal) ℓ) (ρ : Dev nD → PrngReg)

/-- The arguments as launched on core `c`, at their literal types. -/
abbrev a0 (c : Dev nD) : Vec Ideal S2x2048x4096 .f32 := m ((c : Thread nD τ).loc main_arg0)
abbrev a1 (c : Dev nD) : Vec Ideal S2x2048x4096 .f32 := m ((c : Thread nD τ).loc main_arg1)
abbrev a2 (c : Dev nD) : Vec Ideal S4096 .f32 := m ((c : Thread nD τ).loc main_arg2)
abbrev a3 (c : Dev nD) : Vec Ideal S4096 .f32 := m ((c : Thread nD τ).loc main_arg3)
abbrev a4 (c : Dev nD) : Vec Ideal S4096x16384 .f32 := m ((c : Thread nD τ).loc main_arg4)
abbrev a5 (c : Dev nD) : Vec Ideal S16384 .f32 := m ((c : Thread nD τ).loc main_arg5)
abbrev a6 (c : Dev nD) : Vec Ideal S16384x4096 .f32 := m ((c : Thread nD τ).loc main_arg6)
abbrev a7 (c : Dev nD) : Vec Ideal S4096 .f32 := m ((c : Thread nD τ).loc main_arg7)

/-! ## What the reshapes wrote -/

theorem bridge_W4_v8 (c : Dev nD) :
    (W4 (F := Ideal) m ρ c (Proc.devRef .tc main_v8) : S2x2048x4096.Idx → EReal)
      = shapeCast S2x2048x4096 (W3 (F := Ideal) m ρ c (Proc.devRef .tc main_v7) : S4096x4096.Idx → EReal) shapeCasts_S4096x4096_S2x2048x4096 := by
  dsimp only [W4, hostOps2]; after_results; rfl

theorem bridge_W1_v0 (c : Dev nD) :
    (W1 (F := Ideal) m ρ c (Proc.devRef .tc main_v0) : S4096x4096.Idx → EReal)
      = shapeCast S4096x4096 (a0 m c) shapeCasts_S2x2048x4096_S4096x4096 := by
  dsimp only [W1, hostOps0]; after_results; rfl

theorem bridge_W1_v1 (c : Dev nD) :
    (W1 (F := Ideal) m ρ c (Proc.devRef .tc main_v1) : S4096x4096.Idx → EReal)
      = shapeCast S4096x4096 (a1 m c) shapeCasts_S2x2048x4096_S4096x4096 := by
  dsimp only [W1, hostOps0]; after_results; rfl

theorem bridge_W1_v2 (c : Dev nD) :
    (W1 (F := Ideal) m ρ c (Proc.devRef .tc main_v2) : S1x4096.Idx → EReal)
      = shapeCast S1x4096 (a2 m c) shapeCasts_S4096_S1x4096 := by
  dsimp only [W1, hostOps0]; after_results; rfl

theorem bridge_W1_v3 (c : Dev nD) :
    (W1 (F := Ideal) m ρ c (Proc.devRef .tc main_v3) : S1x4096.Idx → EReal)
      = shapeCast S1x4096 (a3 m c) shapeCasts_S4096_S1x4096 := by
  dsimp only [W1, hostOps0]; after_results; rfl

theorem bridge_W1_v4 (c : Dev nD) :
    (W1 (F := Ideal) m ρ c (Proc.devRef .tc main_v4) : S1x16384.Idx → EReal)
      = shapeCast S1x16384 (a5 m c) shapeCasts_S16384_S1x16384 := by
  dsimp only [W1, hostOps0]; after_results; rfl

theorem bridge_W1_v5 (c : Dev nD) :
    (W1 (F := Ideal) m ρ c (Proc.devRef .tc main_v5) : S1x4096.Idx → EReal)
      = shapeCast S1x4096 (a7 m c) shapeCasts_S4096_S1x4096 := by
  dsimp only [W1, hostOps0]; after_results; rfl

/-! ## The arrays each kernel is entered with -/

theorem bridge_x_eq (c : Dev nD) : xArr (V1 (F := Ideal) m ρ) c = shapeCast S4096x4096 (a0 m c) shapeCasts_S2x2048x4096_S4096x4096 := bridge_W1_v0 m ρ c
theorem bridge_r_eq (c : Dev nD) : rArr (V1 (F := Ideal) m ρ) c = shapeCast S4096x4096 (a1 m c) shapeCasts_S2x2048x4096_S4096x4096 := bridge_W1_v1 m ρ c
theorem bridge_g_eq (c : Dev nD) : gArr (V1 (F := Ideal) m ρ) c = shapeCast S1x4096 (a2 m c) shapeCasts_S4096_S1x4096 := bridge_W1_v2 m ρ c
theorem bridge_bt_eq (c : Dev nD) : bArr (V1 (F := Ideal) m ρ) c = shapeCast S1x4096 (a3 m c) shapeCasts_S4096_S1x4096 := bridge_W1_v3 m ρ c

theorem bridge_ln_eq (c : Dev nD) : lnArr (V2 (F := Ideal) m ρ) c = (dat0 (F := Ideal) (V1 m ρ) c).arrAt 4 cfg0.N := W2_arr m ρ c 4
theorem bridge_res_eq (c : Dev nD) : resArr (V2 (F := Ideal) m ρ) c = (dat0 (F := Ideal) (V1 m ρ) c).arrAt 5 cfg0.N := W2_arr m ρ c 5
theorem bridge_w1_eq (c : Dev nD) : w1Arr (V2 (F := Ideal) m ρ) c = a4 m c :=
  (W2_of_ne m ρ c main_arg4 (by decide)).trans
    (StableHlo.after_of_writes_sub hostOps0 _ hostOps0_writes (r := main_arg4) (by decide))
theorem bridge_w2_eq (c : Dev nD) : w2Arr (V2 (F := Ideal) m ρ) c = a6 m c :=
  (W2_of_ne m ρ c main_arg6 (by decide)).trans
    (StableHlo.after_of_writes_sub hostOps0 _ hostOps0_writes (r := main_arg6) (by decide))
theorem bridge_b1_eq (c : Dev nD) : b1Arr (V2 (F := Ideal) m ρ) c = shapeCast S1x16384 (a5 m c) shapeCasts_S16384_S1x16384 :=
  (W2_of_ne m ρ c main_v4 (by decide)).trans (bridge_W1_v4 m ρ c)
theorem bridge_b2_eq (c : Dev nD) : b2Arr (V2 (F := Ideal) m ρ) c = shapeCast S1x4096 (a7 m c) shapeCasts_S4096_S1x4096 :=
  (W2_of_ne m ρ c main_v5 (by decide)).trans (bridge_W1_v5 m ρ c)

theorem bridge_out_eq (c : Dev nD) :
    (W3 (F := Ideal) m ρ c (Proc.devRef .tc main_v7) : S4096x4096.Idx → EReal) = (dat1 (F := Ideal) (V2 m ρ) c).arrAt 6 cfg1.N :=
  W3_arr m ρ c 6

/-! ## The composition -/

/-- The result buffer's final contents at entry (b, s, q). -/
theorem kernel_apply (c : Dev nD) (bb : Fin 2) (s : Fin 2048) (q : Fin 4096) :
    (W4 (F := Ideal) m ρ c (Proc.devRef .tc main_v8) : S2x2048x4096.Idx → EReal) (ix3 bb s q)
      = Spec.outRow (fun j => a0 m c (ix3 bb s j)) (fun j => a1 m c (ix3 bb s j)) (fun j => a2 m c (ix1 j)) (fun j => a3 m c (ix1 j))
          (fun j k => a4 m c (ix2 j k)) (fun k => a5 m c (ix1 k)) (fun k q' => a6 m c (ix2 k q')) (fun q' => a7 m c (ix1 q')) q := by
  obtain ⟨p, hp⟩ : ∃ p : Fin 4096, p.val = 2048 * bb.val + s.val :=
    ⟨⟨2048 * bb.val + s.val, by have := bb.isLt; have := s.isLt; omega⟩, rfl⟩
  have hsum : ∀ j : Fin 4096, xArr (V1 (F := Ideal) m ρ) c (ix2 p j) + rArr (V1 (F := Ideal) m ρ) c (ix2 p j)
      = a0 m c (ix3 bb s j) + a1 m c (ix3 bb s j) := fun j => by
    rw [bridge_x_eq, bridge_r_eq, bridge_cast_3_2 _ _ bb s j p hp, bridge_cast_3_2 _ _ bb s j p hp]
  have hg : ∀ j : Fin 4096, gArr (V1 (F := Ideal) m ρ) c (ix2 0 j) = a2 m c (ix1 j) := fun j => by
    rw [bridge_g_eq, shapeCast_a_1a_apply]
  have hb : ∀ j : Fin 4096, bArr (V1 (F := Ideal) m ρ) c (ix2 0 j) = a3 m c (ix1 j) := fun j => by
    rw [bridge_bt_eq, shapeCast_a_1a_apply]
  have hln : ∀ j : Fin 4096, lnArr (V2 (F := Ideal) m ρ) c (ix2 p j)
      = Spec.lnRow (fun j => a0 m c (ix3 bb s j) + a1 m c (ix3 bb s j)) (fun j => a2 m c (ix1 j)) (fun j => a3 m c (ix1 j)) j := fun j => by
    rw [bridge_ln_eq, arr4_apply]
    simp only [hsum, hg, hb]
  have hres : ∀ j : Fin 4096, resArr (V2 (F := Ideal) m ρ) c (ix2 p j) = a0 m c (ix3 bb s j) + a1 m c (ix3 bb s j) := fun j => by
    rw [bridge_res_eq, arr5_apply, hsum]
  have hw1 : ∀ (j : Fin 4096) (k : Fin 16384), w1Arr (V2 (F := Ideal) m ρ) c (ix2 j k) = a4 m c (ix2 j k) := fun j k => by
    rw [bridge_w1_eq]
  have hw2 : ∀ (k : Fin 16384) (j : Fin 4096), w2Arr (V2 (F := Ideal) m ρ) c (ix2 k j) = a6 m c (ix2 k j) := fun k j => by
    rw [bridge_w2_eq]
  have hb1 : ∀ k : Fin 16384, b1Arr (V2 (F := Ideal) m ρ) c (ix2 0 k) = a5 m c (ix1 k) := fun k => by
    rw [bridge_b1_eq, shapeCast_a_1a_apply]
  have hb2 : ∀ j : Fin 4096, b2Arr (V2 (F := Ideal) m ρ) c (ix2 0 j) = a7 m c (ix1 j) := fun j => by
    rw [bridge_b2_eq, shapeCast_a_1a_apply]
  rw [bridge_W4_v8, bridge_cast_2_3 _ _ bb s q p hp, bridge_out_eq, arr6_apply]
  unfold Spec.outRow
  simp only [hln, hres, hw1, hw2, hb1, hb2]

end Cert.KernelIdeal.Val

end
-- ==== Proof.Val.Ref.lean ====
/-
  The reference program's result, at the ideal instance, entry (b, s, q): reading its operations one at a time — the sum of the
  two activations, the two row reductions and the normalisation, the two dot products with the rectifier between, the
  biases and the residual — it is the whole layer of `Spec.outRow` on row (b, s) of the arguments.
-/
import proofs.«173403_j85487029059846_1_alg».proof.Proof.Gen.ReferenceIdeal.Read
import proofs.«173403_j85487029059846_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where each operation reads, at an entry given by its coordinates -/

/-- A row reduction's operand index at row (b, s), position k. -/
theorem red_idx (bb : Fin 2) (s : Fin 2048) (k : Fin 4096) : idx_main_v1 (ix2 bb s) k = ix3 bb s k :=
  funext fun a => Fin.ext (by match a with | ⟨0, _⟩ => rfl | ⟨1, _⟩ => rfl | ⟨2, _⟩ => rfl)
theorem red_idx' (bb : Fin 2) (s : Fin 2048) (k : Fin 4096) : idx_main_v8 (ix2 bb s) k = ix3 bb s k :=
  funext fun a => Fin.ext (by match a with | ⟨0, _⟩ => rfl | ⟨1, _⟩ => rfl | ⟨2, _⟩ => rfl)
/-- The kept unit axis forgets nothing: entry (b, s, z) of the column reads entry (b, s). -/
theorem col_idx (bb : Fin 2) (s : Fin 2048) (z : Fin 1) : idx_main_v2 (ix3 bb s z) = ix2 bb s :=
  funext fun a => Fin.ext (by match a with | ⟨0, _⟩ => rfl | ⟨1, _⟩ => rfl)
theorem col_idx' (bb : Fin 2) (s : Fin 2048) (z : Fin 1) : idx_main_v9 (ix3 bb s z) = ix2 bb s :=
  funext fun a => Fin.ext (by match a with | ⟨0, _⟩ => rfl | ⟨1, _⟩ => rfl)
/-- A column spread along the row: entry (b, s, q) reads the column's entry (b, s, 0). -/
theorem spread_idx5 (bb : Fin 2) (s : Fin 2048) (q : Fin 4096) : idx_main_v5 (ix3 bb s q) = ix3 bb s (0 : Fin 1) :=
  funext fun a => Fin.ext (by match a with | ⟨0, _⟩ => rfl | ⟨1, _⟩ => rfl | ⟨2, _⟩ => rfl)
theorem spread_idx12 (bb : Fin 2) (s : Fin 2048) (q : Fin 4096) : idx_main_v12 (ix3 bb s q) = ix3 bb s (0 : Fin 1) :=
  funext fun a => Fin.ext (by match a with | ⟨0, _⟩ => rfl | ⟨1, _⟩ => rfl | ⟨2, _⟩ => rfl)
theorem spread_idx17 (bb : Fin 2) (s : Fin 2048) (q : Fin 4096) : idx_main_v17 (ix3 bb s q) = ix3 bb s (0 : Fin 1) :=
  funext fun a => Fin.ext (by match a with | ⟨0, _⟩ => rfl | ⟨1, _⟩ => rfl | ⟨2, _⟩ => rfl)
/-- A vector spread over all rows: entry (b, s, q) reads the vector's entry q, through the [1, 1, n] form. -/
theorem vec_idx20 (bb : Fin 2) (s : Fin 2048) (q : Fin 4096) : idx_main_v19 (idx_main_v20 (ix3 bb s q)) = ix1 q :=
  funext fun a => Fin.ext (by match a with | ⟨0, _⟩ => rfl)
theorem vec_idx23 (bb : Fin 2) (s : Fin 2048) (q : Fin 4096) : idx_main_v22 (idx_main_v23 (ix3 bb s q)) = ix1 q :=
  funext fun a => Fin.ext (by match a with | ⟨0, _⟩ => rfl)
theorem vec_idx27 (bb : Fin 2) (s : Fin 2048) (k : Fin 16384) : idx_main_v26 (idx_main_v27 (ix3 bb s k)) = ix1 k :=
  funext fun a => Fin.ext (by match a with | ⟨0, _⟩ => rfl)
theorem vec_idx32 (bb : Fin 2) (s : Fin 2048) (q : Fin 4096) : idx_main_v31 (idx_main_v32 (ix3 bb s q)) = ix1 q :=
  funext fun a => Fin.ext (by match a with | ⟨0, _⟩ => rfl)
/-- The first product at entry (b, s, k): row (b, s) against column k. -/
theorem dot1_lidx (bb : Fin 2) (s : Fin 2048) (k : Fin 16384) (j : Fin 4096) : lidx_main_v25 (ix3 bb s k) j = ix3 bb s j :=
  funext fun a => Fin.ext (by match a with | ⟨0, _⟩ => rfl | ⟨1, _⟩ => rfl | ⟨2, _⟩ => rfl)
theorem dot1_ridx (bb : Fin 2) (s : Fin 2048) (k : Fin 16384) (j : Fin 4096) : ridx_main_v25 (ix3 bb s k) j = ix2 j k :=
  funext fun a => Fin.ext (by match a with | ⟨0, _⟩ => rfl | ⟨1, _⟩ => rfl)
/-- The second product at entry (b, s, q): hidden row (b, s) against column q. -/
theorem dot2_lidx (bb : Fin 2) (s : Fin 2048) (q : Fin 4096) (k : Fin 16384) : lidx_main_v30 (ix3 bb s q) k = ix3 bb s k :=
  funext fun a => Fin.ext (by match a with | ⟨0, _⟩ => rfl | ⟨1, _⟩ => rfl | ⟨2, _⟩ => rfl)
theorem dot2_ridx (bb : Fin 2) (s : Fin 2048) (q : Fin 4096) (k : Fin 16384) : ridx_main_v30 (ix3 bb s q) k = ix2 k q :=
  funext fun a => Fin.ext (by match a with | ⟨0, _⟩ => rfl | ⟨1, _⟩ => rfl)

section Stages

variable (x0 x1 : (⟨S2x2048x4096, .f32⟩ : BufTy).Contents (Elt Ideal)) (x2 x3 : (⟨S4096, .f32⟩ : BufTy).Contents (Elt Ideal))
  (x4 : (⟨S4096x16384, .f32⟩ : BufTy).Contents (Elt Ideal)) (x5 : (⟨S16384, .f32⟩ : BufTy).Contents (Elt Ideal))
  (x6 : (⟨S16384x4096, .f32⟩ : BufTy).Contents (Elt Ideal)) (x7 : (⟨S4096, .f32⟩ : BufTy).Contents (Elt Ideal))
  (bb : Fin 2) (s : Fin 2048)

/-- Row (b, s) of the summed activations. -/
abbrev hrow : Fin 4096 → EReal := fun j => x0 (ix3 bb s j) + x1 (ix3 bb s j)

/-- The sum of the two activations at entry (b, s, j). -/
theorem sum_apply (j : Fin 4096) :
    (val_main_v0 (F := Ideal) x0 x1 : S2x2048x4096.Idx → EReal) (ix3 bb s j) = hrow x0 x1 bb s j := rfl

/-- The mean column at (b, s, z) is the row's mean. -/
theorem mean_apply (z : Fin 1) :
    (val_main_v4 (F := Ideal) x0 x1 : S2x2048x1.Idx → EReal) (ix3 bb s z) = Spec.mean (hrow x0 x1 bb s) := by
  rw [val_main_v4_apply, val_main_v2_apply, val_main_v1_apply, val_main_v3_apply, val_main_cst_apply, val_main_cst_0_apply]
  simp only [col_idx, red_idx, sum_apply, Ideal.hostDivf_def, Ideal.ofBits_def, Ideal.ofBits_zero_f32, zero_add]
  rfl

/-- The variance column at (b, s, z) is the row's variance. -/
theorem var_apply (z : Fin 1) :
    (val_main_v11 (F := Ideal) x0 x1 : S2x2048x1.Idx → EReal) (ix3 bb s z) = Spec.var (hrow x0 x1 bb s) := by
  rw [val_main_v11_apply, val_main_v9_apply, val_main_v8_apply, val_main_v10_apply, val_main_cst_1_apply, val_main_cst_2_apply]
  simp only [col_idx', red_idx', val_main_v7_apply, val_main_v6_apply, val_main_v5_apply, spread_idx5, mean_apply, sum_apply,
    Ideal.hostDivf_def, Ideal.mulf_def, Ideal.subf_def, Ideal.ofBits_def, Ideal.ofBits_zero_f32, zero_add]
  rfl

/-- The normalised, scaled and shifted stage at (b, s, j) is the row's layer normalisation. -/
theorem ln_apply (j : Fin 4096) :
    (val_main_v24 (F := Ideal) x0 x1 x2 x3 : S2x2048x4096.Idx → EReal) (ix3 bb s j)
      = Spec.lnRow (hrow x0 x1 bb s) (fun j => x2 (ix1 j)) (fun j => x3 (ix1 j)) j := by
  rw [val_main_v24_apply, val_main_v21_apply, val_main_v18_apply, val_main_v13_apply, val_main_v12_apply, val_main_v17_apply,
    val_main_v16_apply, val_main_v15_apply, val_main_v14_apply, val_main_cst_3_apply, val_main_v20_apply, val_main_v19_apply,
    val_main_v23_apply, val_main_v22_apply]
  simp only [spread_idx12, spread_idx17, vec_idx20, vec_idx23, mean_apply, var_apply, sum_apply,
    Ideal.addf_def, Ideal.mulf_def, Ideal.subf_def, Ideal.hostUnary_rsqrt_def, Ideal.ofBits_def]
  rfl

/-- The rectified first product at (b, s, k) is the row's hidden activation k. -/
theorem hidden_apply (k : Fin 16384) :
    (val_main_v29 (F := Ideal) x0 x1 x2 x3 x4 x5 : S2x2048x16384.Idx → EReal) (ix3 bb s k)
      = Spec.hidden (Spec.lnRow (hrow x0 x1 bb s) (fun j => x2 (ix1 j)) (fun j => x3 (ix1 j)))
          (fun j k => x4 (ix2 j k)) (fun k => x5 (ix1 k)) k := by
  rw [val_main_v29_apply, val_main_v28_apply, val_main_v25_apply, val_main_v27_apply, val_main_v26_apply,
    val_main_call0_v0_apply, val_main_call0_cst_apply]
  simp only [dot1_lidx, dot1_ridx, vec_idx27, ln_apply, Ideal.addf_def, Ideal.maximumf_def, Ideal.ofBits_def, Ideal.ofBits_zero_f32]
  rfl

end Stages

/-- The reference's result stage at entry (b, s, q) is the layer on row (b, s). -/
theorem ref_apply (x0 x1 : (⟨S2x2048x4096, .f32⟩ : BufTy).Contents (Elt Ideal)) (x2 x3 : (⟨S4096, .f32⟩ : BufTy).Contents (Elt Ideal))
    (x4 : (⟨S4096x16384, .f32⟩ : BufTy).Contents (Elt Ideal)) (x5 : (⟨S16384, .f32⟩ : BufTy).Contents (Elt Ideal))
    (x6 : (⟨S16384x4096, .f32⟩ : BufTy).Contents (Elt Ideal)) (x7 : (⟨S4096, .f32⟩ : BufTy).Contents (Elt Ideal))
    (bb : Fin 2) (s : Fin 2048) (q : Fin 4096) :
    (val_main_v34 (F := Ideal) x0 x1 x2 x3 x4 x5 x6 x7 : S2x2048x4096.Idx → EReal) (ix3 bb s q)
      = Spec.outRow (fun j => x0 (ix3 bb s j)) (fun j => x1 (ix3 bb s j)) (fun j => x2 (ix1 j)) (fun j => x3 (ix1 j))
          (fun j k => x4 (ix2 j k)) (fun k => x5 (ix1 k)) (fun k q' => x6 (ix2 k q')) (fun q' => x7 (ix1 q')) q := by
  rw [val_main_v34_apply, val_main_v33_apply, val_main_v30_apply, val_main_v32_apply, val_main_v31_apply]
  simp only [dot2_lidx, dot2_ridx, vec_idx32, hidden_apply, sum_apply, Ideal.addf_def]
  rfl

end Cert.ReferenceIdeal.RefValue

end
-- ==== Proof.lean ====
/-
  The certificate: a transformer layer's feed-forward block — residual add, layer normalisation, a 4096 → 16384 → 4096
  perceptron with a rectifier, biases, residual add — computed by two kernels (the normalisation on blocks of 256 rows;
  the perceptron on row tiles of 512 rows with the hidden axis summed in 128 tiles of 128 into a running sum) against
  the plain array program.

  The three frames: the kernel program at the word level and at the ideal instance run to the end with every unscoped
  buffer at named contents, the arguments among them unchanged (one proof, generic in the float instance: KI/Launch,
  K/Launch); the reference has no kernel, and its frame is its run with the result forgotten (RefFrame).
  The idealization rewrote nothing, so `preserves` is trivial.
  The value claim: at the ideal instance the kernel program's result at entry (b, s, q) is the layer of `Spec.outRow`
  on row (b, s) of the arguments (Val/Bridge, from the two kernels' result arrays: Val/Reg0, Val/Reg1), and so is the
  reference's (Val/Ref); format changes are the identity there and a sum does not depend on its tiling, so no
  finiteness of the inputs is used.
-/
import proofs.«173403_j85487029059846_1_alg».proof.Defs
import proofs.«173403_j85487029059846_1_alg».proof.Proof.Gen.Kernel
import proofs.«173403_j85487029059846_1_alg».proof.Proof.Gen.KernelIdeal
import proofs.«173403_j85487029059846_1_alg».proof.Proof.Gen.ReferenceIdeal
import proofs.«173403_j85487029059846_1_alg».proof.Proof.Gen.Pre_finite_inputs
import proofs.«173403_j85487029059846_1_alg».proof.Proof.K.Launch
import proofs.«173403_j85487029059846_1_alg».proof.Proof.KI.Launch
import proofs.«173403_j85487029059846_1_alg».proof.Proof.RefFrame
import proofs.«173403_j85487029059846_1_alg».proof.Proof.Val.Bridge
import proofs.«173403_j85487029059846_1_alg».proof.Proof.Val.Ref
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ

/-- The kernel program's result array on core `c`, as a function of the launch memory. -/
def result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) : Buf (Elt Ideal) ((c.tc : Thread Cert.KernelIdeal.nD Cert.KernelIdeal.τ).loc Cert.KernelIdeal.main_v8) :=
  Cert.KernelIdeal.Hand.W4 (F := Ideal) m ρ c (Proc.devRef .tc Cert.KernelIdeal.main_v8)

/-- Both programs end with the layer of `Spec.outRow` on every row of arguments that agree. -/
theorem algebraic : Cert.algebraic_KernelIdeal_ReferenceIdeal := by
  intro m ρ m' ρ' _ hagree
  refine ⟨result m ρ, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq]
  funext i
  obtain ⟨bb, s, q, rfl⟩ : ∃ (bb : Fin 2) (s : Fin 2048) (q : Fin 4096), i = ix3 bb s q := ⟨i 0, i 1, i 2, eq_ix3 i⟩
  refine (Cert.ReferenceIdeal.RefValue.ref_apply _ _ _ _ _ _ _ _ bb s q).trans ?_
  refine Eq.trans ?_ (Cert.KernelIdeal.Val.kernel_apply m ρ c bb s q).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, Cert.Proof.RefClaims.frame_ri, trivial, algebraic⟩

end Cert.Proof

end
